-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v84)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v84) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x800000 : Shape := ⟨2, ![2, 800000]⟩
abbrev S50000x128 : Shape := ⟨2, ![50000, 128]⟩
abbrev S100000x2 : Shape := ⟨2, ![100000, 2]⟩
abbrev S128x256 : Shape := ⟨2, ![128, 256]⟩
abbrev S256 : Shape := ⟨1, ![256]⟩
abbrev S256x128 : Shape := ⟨2, ![256, 128]⟩
abbrev S128 : Shape := ⟨1, ![128]⟩
abbrev S256x1 : Shape := ⟨2, ![256, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg6 : FVec F S128 .f32) (main_arg7 : FVec F S256x1 .f32) (main_arg8 : FVec F S1 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S256x1 .f32 := Host.absf main_arg7
  let main_cst_8 : FVec F S_ .f32 := constant S_ .f32 0x7F800000#32
  let main_v25 : FVec F S256x1 .f32 := broadcastInDim S256x1 ![] bcast_S_S256x1 main_cst_8
  let main_v26 : IVec S256x1 1 := cmpf .olt main_v24 main_v25
  let main_c_9 : IVec S_ 1 := constantI S_ 1 1#1
  let main_v27 : IVec S_ 1 := (fun x v => Host.reduce IntOp.andi x v reducesTo_S256x1_S_d0_1 h_S_) main_v26 main_c_9
  let main_v28 : IVec S_ 1 := andi main_v23 main_v27
  let main_v29 : FVec F S1 .f32 := Host.absf main_arg8
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : IVec S2x800000 32) (main_arg1 : FVec F S50000x128 .f32) (main_arg2 : IVec S100000x2 32) (main_arg3 : FVec F S128x256 .f32) (main_arg4 : FVec F S256 .f32) (main_arg5 : FVec F S256x128 .f32) (main_arg6 : FVec F S128 .f32) (main_arg7 : FVec F S256x1 .f32) (main_arg8 : FVec F S1 .f32) : IVec S_ 1 :=
  let main_v0 : FVec F S50000x128 .f32 := Host.absf main_arg1
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg3
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128 .f32 := Host.absf main_arg5
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg6 main_arg7 main_arg8 main_v13 main_v16
-- ==== Kernel.lean ====
abbrev S2x800000 : Shape := ⟨2, ![2, 800000]⟩
abbrev S50000x128 : Shape := ⟨2, ![50000, 128]⟩
abbrev S100000x2 : Shape := ⟨2, ![100000, 2]⟩
abbrev S128x256 : Shape := ⟨2, ![128, 256]⟩
abbrev S256 : Shape := ⟨1, ![256]⟩
abbrev S256x128 : Shape := ⟨2, ![256, 128]⟩
abbrev S128 : Shape := ⟨1, ![128]⟩
abbrev S256x1 : Shape := ⟨2, ![256, 1]⟩
abbrev S1 : Shape := ⟨1, ![1]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x256 : Shape := ⟨2, ![50000, 256]⟩
abbrev S2000x128 : Shape := ⟨2, ![2000, 128]⟩
abbrev S2000x256 : Shape := ⟨2, ![2000, 256]⟩
abbrev S850000x256 : Shape := ⟨2, ![850000, 256]⟩
abbrev S1x256 : Shape := ⟨2, ![1, 256]⟩
abbrev S850000x128 : Shape := ⟨2, ![850000, 128]⟩
abbrev S1x128 : Shape := ⟨2, ![1, 128]⟩
abbrev S100000x1 : Shape := ⟨2, ![100000, 1]⟩
abbrev S100000 : Shape := ⟨1, ![100000]⟩
abbrev S100000x128 : Shape := ⟨2, ![100000, 128]⟩
abbrev S128x1 : Shape := ⟨2, ![128, 1]⟩
abbrev S1x1 : Shape := ⟨2, ![1, 1]⟩
abbrev S5000x128 : Shape := ⟨2, ![5000, 128]⟩
abbrev S5000x1 : Shape := ⟨2, ![5000, 1]⟩
abbrev S5000 : Shape := ⟨1, ![5000]⟩

abbrev nBuf : Space → Nat
  | .hbm => 114
  | .vmem => 29
  | .smem => 0
  | _ => 0

abbrev bufTy : (tb : Table) → Fin (tcTables nBuf tb) → BufTy
  | .hbm, ⟨0, _⟩ => ⟨S2x800000, .i32⟩
  | .hbm, ⟨1, _⟩ => ⟨S50000x128, .f32⟩
  | .hbm, ⟨2, _⟩ => ⟨S100000x2, .i32⟩
  | .hbm, ⟨3, _⟩ => ⟨S128x256, .f32⟩
  | .hbm, ⟨4, _⟩ => ⟨S256, .f32⟩
  | .hbm, ⟨5, _⟩ => ⟨S256x128, .f32⟩
  | .hbm, ⟨6, _⟩ => ⟨S128, .f32⟩
  | .hbm, ⟨7, _⟩ => ⟨S256x1, .f32⟩
  | .hbm, ⟨8, _⟩ => ⟨S1, .f32⟩
  | .hbm, ⟨9, _⟩ => ⟨S50000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S1x800000, .i32⟩
  | .hbm, ⟨14, _⟩ => ⟨S800000, .i32⟩
  | .hbm, ⟨15, _⟩ => ⟨S850000, .i32⟩
  | .hbm, ⟨16, _⟩ => ⟨S_, .f32⟩
  | .hbm, ⟨17, _⟩ => ⟨S850000, .f32⟩
  | .hbm, ⟨18, _⟩ => ⟨S_, .f32⟩
  | .hbm, ⟨19, _⟩ => ⟨S50000, .f32⟩
  | .hbm, ⟨20, _⟩ => ⟨S850000x1, .i32⟩
  | .hbm, ⟨21, _⟩ => ⟨S50000, .f32⟩
  | .hbm, ⟨22, _⟩ => ⟨S_, .f32⟩
  | .hbm, ⟨23, _⟩ => ⟨S50000, .f32⟩
  | .hbm, ⟨24, _⟩ => ⟨S50000, .i1⟩
  | .hbm, ⟨25, _⟩ => ⟨S50000, .f32⟩
  | .hbm, ⟨26, _⟩ => ⟨S_, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S_, .i32⟩
  | .hbm, ⟨31, _⟩ => ⟨S850000, .i32⟩
  | .hbm, ⟨32, _⟩ => ⟨S850000, .i1⟩
  | .hbm, ⟨33, _⟩ => ⟨S_, .i32⟩
  | .hbm, ⟨34, _⟩ => ⟨S850000, .i32⟩
  | .hbm, ⟨35, _⟩ => ⟨S850000, .i32⟩
  | .hbm, ⟨36, _⟩ => ⟨S850000, .i32⟩
  | .hbm, ⟨37, _⟩ => ⟨S850000x1, .i32⟩
  | .hbm, ⟨38, _⟩ => ⟨S850000, .f32⟩
  | .hbm, ⟨39, _⟩ => ⟨S_, .i32⟩
  | .hbm, ⟨40, _⟩ => ⟨S850000, .i32⟩
  | .hbm, ⟨41, _⟩ => ⟨S850000, .i1⟩
  | .hbm, ⟨42, _⟩ => ⟨S_, .i32⟩
  | .hbm, ⟨43, _⟩ => ⟨S850000, .i32⟩
  | .hbm, ⟨44, _⟩ => ⟨S850000, .i32⟩
  | .hbm, ⟨45, _⟩ => ⟨S850000, .i32⟩
  | .hbm, ⟨46, _⟩ => ⟨S850000x1, .i32⟩
  | .hbm, ⟨47, _⟩ => ⟨S850000, .f32⟩
  | .hbm, ⟨48, _⟩ => ⟨S850000, .f32⟩
  | .hbm, ⟨49, _⟩ => ⟨S850000x1, .f32⟩
  | .hbm, ⟨50, _⟩ => ⟨S50000x256, .f32⟩
  | .hbm, ⟨51, _⟩ => ⟨S_, .i32⟩
  | .hbm, ⟨52, _⟩ => ⟨S850000, .i32⟩
  | .hbm, ⟨53, _⟩ => ⟨S850000, .i1⟩
  | .hbm, ⟨54, _⟩ => ⟨S_, .i32⟩
  | .hbm, ⟨55, _⟩ => ⟨S850000, .i32⟩
  | .hbm, ⟨56, _⟩ => ⟨S850000, .i32⟩
  | .hbm, ⟨57, _⟩ => ⟨S850000, .i32⟩
  | .hbm, ⟨58, _⟩ => ⟨S850000x1, .i32⟩
  | .hbm, ⟨59, _⟩ => ⟨S850000x256, .f32⟩
  | .hbm, ⟨60, _⟩ => ⟨S850000x256, .f32⟩
  | .hbm, ⟨61, _⟩ => ⟨S850000x256, .f32⟩
  | .hbm, ⟨62, _⟩ => ⟨S_, .f32⟩
  | .hbm, ⟨63, _⟩ => ⟨S50000x256, .f32⟩
  | .hbm, ⟨64, _⟩ => ⟨S850000x1, .i32⟩
  | .hbm, ⟨65, _⟩ => ⟨S50000x256, .f32⟩
  | .hbm, ⟨66, _⟩ => ⟨S1x256, .f32⟩
  | .hbm, ⟨67, _⟩ => ⟨S50000x256, .f32⟩
  | .hbm, ⟨68, _⟩ => ⟨S50000x128, .f32⟩
  | .hbm, ⟨69, _⟩ => ⟨S_, .i32⟩
  | .hbm, ⟨70, _⟩ => ⟨S850000, .i32⟩
  | .hbm, ⟨71, _⟩ => ⟨S850000, .i1⟩
  | .hbm, ⟨72, _⟩ => ⟨S_, .i32⟩
  | .hbm, ⟨73, _⟩ => ⟨S850000, .i32⟩
  | .hbm, ⟨74, _⟩ => ⟨S850000, .i32⟩
  | .hbm, ⟨75, _⟩ => ⟨S850000, .i32⟩
  | .hbm, ⟨76, _⟩ => ⟨S850000x1, .i32⟩
  | .hbm, ⟨77, _⟩ => ⟨S850000x128, .f32⟩
  | .hbm, ⟨78, _⟩ => ⟨S850000x128, .f32⟩
  | .hbm, ⟨79, _⟩ => ⟨S850000x128, .f32⟩
  | .hbm, ⟨80, _⟩ => ⟨S_, .f32⟩
  | .hbm, ⟨81, _⟩ => ⟨S50000x128, .f32⟩
  | .hbm, ⟨82, _⟩ => ⟨S850000x1, .i32⟩
  | .hbm, ⟨83, _⟩ => ⟨S50000x128, .f32⟩
  | .hbm, ⟨84, _⟩ => ⟨S1x128, .f32⟩
  | .hbm, ⟨85, _⟩ => ⟨S50000x128, .f32⟩
  | .hbm, ⟨86, _⟩ => ⟨S100000x1, .i32⟩
  | .hbm, ⟨87, _⟩ => ⟨S100000, .i32⟩
  | .hbm, ⟨88, _⟩ => ⟨S100000x1, .i32⟩
  | .hbm, ⟨89, _⟩ => ⟨S100000, .i32⟩
  | .hbm, ⟨90, _⟩ => ⟨S_, .i32⟩
  | .hbm, ⟨91, _⟩ => ⟨S100000, .i32⟩
  | .hbm, ⟨92, _⟩ => ⟨S100000, .i1⟩
  | .hbm, ⟨93, _⟩ => ⟨S_, .i32⟩
  | .hbm, ⟨94, _⟩ => ⟨S100000, .i32⟩
  | .hbm, ⟨95, _⟩ => ⟨S100000, .i32⟩
  | .hbm, ⟨96, _⟩ => ⟨S100000, .i32⟩
  | .hbm, ⟨97, _⟩ => ⟨S100000x1, .i32⟩
  | .hbm, ⟨98, _⟩ => ⟨S100000x128, .f32⟩
  | .hbm, ⟨99, _⟩ => ⟨S_, .i32⟩
  | .hbm, ⟨100, _⟩ => ⟨S100000, .i32⟩
  | .hbm, ⟨101, _⟩ => ⟨S100000, .i1⟩
  | .hbm, ⟨102, _⟩ => ⟨S_, .i32⟩
  | .hbm, ⟨103, _⟩ => ⟨S100000, .i32⟩
  | .hbm, ⟨104, _⟩ => ⟨S100000, .i32⟩
  | .hbm, ⟨105, _⟩ => ⟨S100000, .i32⟩
  | .hbm, ⟨106, _⟩ => ⟨S100000x1, .i32⟩
  | .hbm, ⟨107, _⟩ => ⟨S100000x128, .f32⟩
  | .hbm, ⟨108, _⟩ => ⟨S128x1, .f32⟩
  | .hbm, ⟨109, _⟩ => ⟨S1x128, .f32⟩
  | .hbm, ⟨110, _⟩ => ⟨S128x1, .f32⟩
  | .hbm, ⟨111, _⟩ => ⟨S1x128, .f32⟩
  | .hbm, ⟨112, _⟩ => ⟨S1x1, .f32⟩
  | .hbm, ⟨113, _⟩ => ⟨S100000x1, .f32⟩
  | .local _ .vmem, ⟨0, _⟩ => ⟨S2000x128, .f32⟩
  | .local _ .vmem, ⟨1, _⟩ => ⟨S2000x128, .f32⟩
  | .local _ .vmem, ⟨2, _⟩ => ⟨S128x256, .f32⟩
  | .local _ .vmem, ⟨3, _⟩ => ⟨S2000x256, .f32⟩
  | .local _ .vmem, ⟨4, _⟩ => ⟨S2000x256, .f32⟩
  | .local _ .vmem, ⟨5, _⟩ => ⟨S2000x256, .f32⟩
  | .local _ .vmem, ⟨6, _⟩ => ⟨S2000x256, .f32⟩
  | .local _ .vmem, ⟨7, _⟩ => ⟨S1x256, .f32⟩
  | .local _ .vmem, ⟨8, _⟩ => ⟨S2000x256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S256x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S1x128, .f32⟩
  | .local _ .vmem, ⟨18, _⟩ => ⟨S2000x128, .f32⟩
  | .local _ .vmem, ⟨19, _⟩ => ⟨S2000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S1x128, .f32⟩
  | .local _ .vmem, ⟨25, _⟩ => ⟨S1x128, .f32⟩
  | .local _ .vmem, ⟨26, _⟩ => ⟨S1x1, .f32⟩
  | .local _ .vmem, ⟨27, _⟩ => ⟨S5000x1, .f32⟩
  | .local _ .vmem, ⟨28, _⟩ => ⟨S5000x1, .f32⟩
  | _, _ => ⟨S2x800000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_c_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_c_6 : Ref sig .tc := ⟨.hbm, 51, rfl⟩
abbrev main_v32 : Ref sig .tc := ⟨.hbm, 52, rfl⟩
abbrev main_v33 : Ref sig .tc := ⟨.hbm, 53, rfl⟩
abbrev main_c_7 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_c_9 : Ref sig .tc := ⟨.hbm, 69, rfl⟩
abbrev main_v47 : Ref sig .tc := ⟨.hbm, 70, rfl⟩
abbrev main_v48 : Ref sig .tc := ⟨.hbm, 71, rfl⟩
abbrev main_c_10 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_11 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_c_12 : Ref sig .tc := ⟨.hbm, 90, rfl⟩
abbrev main_v65 : Ref sig .tc := ⟨.hbm, 91, rfl⟩
abbrev main_v66 : Ref sig .tc := ⟨.hbm, 92, rfl⟩
abbrev main_c_13 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_c_14 : Ref sig .tc := ⟨.hbm, 99, rfl⟩
abbrev main_v72 : Ref sig .tc := ⟨.hbm, 100, rfl⟩
abbrev main_v73 : Ref sig .tc := ⟨.hbm, 101, rfl⟩
abbrev main_c_15 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg1_1 : Ref sig .tc := ⟨.vmem, 23, rfl⟩
abbrev cc4_stg2_0 : Ref sig .tc := ⟨.vmem, 24, rfl⟩
abbrev cc4_stg3_0 : Ref sig .tc := ⟨.vmem, 25, rfl⟩
abbrev cc4_stg4_0 : Ref sig .tc := ⟨.vmem, 26, rfl⟩
abbrev cc4_stg5_0 : Ref sig .tc := ⟨.vmem, 27, rfl⟩
abbrev cc4_stg5_1 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem1_1 : DmaSem sig := 23
abbrev cc4_sem2_0 : DmaSem sig := 24
abbrev cc4_sem3_0 : DmaSem sig := 25
abbrev cc4_sem4_0 : DmaSem sig := 26
abbrev cc4_sem5_0 : DmaSem sig := 27
abbrev cc4_sem5_1 : DmaSem sig := 28

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x1 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S5000x1 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S2000x256_S2000x256_0_0 : ∀ a, (![0, 0] : Fin 2 → Nat) a + S2000x256.size a ≤ S2000x256.size a
  h_S2000x256 : 0 < S2000x256.numel
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  shapeCasts_S256_S1x256 : S256.ShapeCasts S1x256
  shapeCasts_S2000x256_S2000x256 : S2000x256.ShapeCasts S2000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S256x128_S256x128_0_0 : ∀ a, (![0, 0] : Fin 2 → Nat) a + S256x128.size a ≤ S256x128.size a
  h_S256x128 : 0 < S256x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S128_S1x128 : S128.ShapeCasts S1x128
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  slices_S100000x2_S100000x1_0_0 : S100000x2.Slices ![0, 0] S100000x1
  shapeCasts_S100000x1_S100000 : S100000x1.ShapeCasts S100000
  slices_S100000x2_S100000x1_0_1 : S100000x2.Slices ![0, 1] S100000x1
  bcast_S_S100000 : S_.BroadcastsInDim S100000 (![] : Fin 0 → Fin S100000.rank)
  bcast_S100000_S100000x1_0 : S100000.BroadcastsInDim S100000x1 (![0] : Fin 1 → Fin S100000x1.rank)
  slices_S256x1_S128x1_0_0 : S256x1.Slices ![0, 0] S128x1
  shapeCasts_S128x1_S1x128 : S128x1.ShapeCasts S1x128
  slices_S256x1_S128x1_128_0 : S256x1.Slices ![128, 0] S128x1
  shapeCasts_S1_S1x1 : S1.ShapeCasts S1x1
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  broadcasts_S1x128_S5000x128 : S1x128.Broadcasts S5000x128
  reduces_S5000x128_S5000 : S5000x128.Reduces [1] S5000
  shapeCasts_S5000_S5000x1 : S5000.ShapeCasts S5000x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S2000x128_S128x256_S2000x256_1_0_0_1_n_n_wf : DotDims.WF S2000x128 S128x256 S2000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S2000x256_S256x128_S2000x128_1_0_0_1_n_n_wf : DotDims.WF S2000x256 S256x128 S2000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  gather_S50000x128_S100000x1_S100000x128_1_0_n_n_0_1_1128_wf : GatherDims.WF S50000x128 S100000x1 S100000x128 [1] [0] [] [0] [] 1 ![1, 128]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S50000x256.size a
  hwx0_2 : ∀ i : grid0.Coords, EltTy.bits .f32 = 32 ∨ (Rect.block (s := S50000x256) S2000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x256.size a ≤ S50000x256.size a
  hwx1_2 : ∀ i : grid1.Coords, EltTy.bits .f32 = 32 ∨ (Rect.block (s := S50000x256) S2000x256.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x128.size a ≤ S256x128.size a
  hwx2_1 : ∀ i : grid2.Coords, EltTy.bits .f32 = 32 ∨ (Rect.block (s := S256x128) S256x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S50000x128.size a
  hwx2_2 : ∀ i : grid2.Coords, EltTy.bits .f32 = 32 ∨ (Rect.block (s := S50000x128) S2000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x128.size a ≤ S50000x128.size a
  hwx3_2 : ∀ i : grid3.Coords, EltTy.bits .f32 = 32 ∨ (Rect.block (s := S50000x128) S2000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S100000x128.size a
  hwx4_1 : ∀ i : grid4.Coords, EltTy.bits .f32 = 32 ∨ (Rect.block (s := S100000x128) S5000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x1.size a ≤ S1x1.size a
  hwx4_4 : ∀ i : grid4.Coords, EltTy.bits .f32 = 32 ∨ (Rect.block (s := S1x1) S1x1.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S5000x1.size a ≤ S100000x1.size a
  hwx4_5 : ∀ i : grid4.Coords, EltTy.bits .f32 = 32 ∨ (Rect.block (s := S100000x1) S5000x1.size (cc4_transform_5 i) (hinb4_5 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def gather_S50000x128_S100000x1_S100000x128_1_0_n_n_0_1_1128 : GatherDims S50000x128 S100000x1 S100000x128 where
  offsetDims := [1]
  collapsedSliceDims := [0]
  operandBatchingDims := []
  startIndicesBatchingDims := []
  startIndexMap := [0]
  indexVectorDim := 1
  sliceSizes := ![1, 128]
  wf := gather_S50000x128_S100000x1_S100000x128_1_0_n_n_0_1_1128_wf

abbrev win0_0 : Pipeline.Window sig grid0 :=
  Pipeline.Window.ofSpec (Memref.whole main_arg1) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S2000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S2000x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S256x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S2000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v58) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v59) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v60) S2000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v71) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v78) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v80) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v82) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v83) S1x1.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v84) S5000x1.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S2x800000 : Shape := ⟨2, ![2, 800000]⟩
abbrev S50000x128 : Shape := ⟨2, ![50000, 128]⟩
abbrev S100000x2 : Shape := ⟨2, ![100000, 2]⟩
abbrev S128x256 : Shape := ⟨2, ![128, 256]⟩
abbrev S256 : Shape := ⟨1, ![256]⟩
abbrev S256x128 : Shape := ⟨2, ![256, 128]⟩
abbrev S128 : Shape := ⟨1, ![128]⟩
abbrev S256x1 : Shape := ⟨2, ![256, 1]⟩
abbrev S1 : Shape := ⟨1, ![1]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x256 : Shape := ⟨2, ![50000, 256]⟩
abbrev S850000x256 : Shape := ⟨2, ![850000, 256]⟩
abbrev S1x256 : Shape := ⟨2, ![1, 256]⟩
abbrev S850000x128 : Shape := ⟨2, ![850000, 128]⟩
abbrev S1x128 : Shape := ⟨2, ![1, 128]⟩
abbrev S2x100000 : Shape := ⟨2, ![2, 100000]⟩
abbrev S1x100000 : Shape := ⟨2, ![1, 100000]⟩
abbrev S100000 : Shape := ⟨1, ![100000]⟩
abbrev S100000x1 : Shape := ⟨2, ![100000, 1]⟩
abbrev S100000x128 : Shape := ⟨2, ![100000, 128]⟩
abbrev S100000x256 : Shape := ⟨2, ![100000, 256]⟩
abbrev S1x1 : Shape := ⟨2, ![1, 1]⟩

abbrev nBuf : Space → Nat
  | .hbm => 128
  | .vmem => 0
  | .smem => 0
  | _ => 0

abbrev bufTy : (tb : Table) → Fin (tcTables nBuf tb) → BufTy
  | .hbm, ⟨0, _⟩ => ⟨S2x800000, .i32⟩
  | .hbm, ⟨1, _⟩ => ⟨S50000x128, .f32⟩
  | .hbm, ⟨2, _⟩ => ⟨S100000x2, .i32⟩
  | .hbm, ⟨3, _⟩ => ⟨S128x256, .f32⟩
  | .hbm, ⟨4, _⟩ => ⟨S256, .f32⟩
  | .hbm, ⟨5, _⟩ => ⟨S256x128, .f32⟩
  | .hbm, ⟨6, _⟩ => ⟨S128, .f32⟩
  | .hbm, ⟨7, _⟩ => ⟨S256x1, .f32⟩
  | .hbm, ⟨8, _⟩ => ⟨S1, .f32⟩
  | .hbm, ⟨9, _⟩ => ⟨S50000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S1x800000, .i32⟩
  | .hbm, ⟨14, _⟩ => ⟨S800000, .i32⟩
  | .hbm, ⟨15, _⟩ => ⟨S850000, .i32⟩
  | .hbm, ⟨16, _⟩ => ⟨S_, .f32⟩
  | .hbm, ⟨17, _⟩ => ⟨S850000, .f32⟩
  | .hbm, ⟨18, _⟩ => ⟨S_, .f32⟩
  | .hbm, ⟨19, _⟩ => ⟨S50000, .f32⟩
  | .hbm, ⟨20, _⟩ => ⟨S850000x1, .i32⟩
  | .hbm, ⟨21, _⟩ => ⟨S50000, .f32⟩
  | .hbm, ⟨22, _⟩ => ⟨S_, .f32⟩
  | .hbm, ⟨23, _⟩ => ⟨S50000, .f32⟩
  | .hbm, ⟨24, _⟩ => ⟨S50000, .i1⟩
  | .hbm, ⟨25, _⟩ => ⟨S50000, .f32⟩
  | .hbm, ⟨26, _⟩ => ⟨S_, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S_, .i32⟩
  | .hbm, ⟨31, _⟩ => ⟨S850000, .i32⟩
  | .hbm, ⟨32, _⟩ => ⟨S850000, .i1⟩
  | .hbm, ⟨33, _⟩ => ⟨S_, .i32⟩
  | .hbm, ⟨34, _⟩ => ⟨S850000, .i32⟩
  | .hbm, ⟨35, _⟩ => ⟨S850000, .i32⟩
  | .hbm, ⟨36, _⟩ => ⟨S850000, .i32⟩
  | .hbm, ⟨37, _⟩ => ⟨S850000x1, .i32⟩
  | .hbm, ⟨38, _⟩ => ⟨S850000, .f32⟩
  | .hbm, ⟨39, _⟩ => ⟨S_, .i32⟩
  | .hbm, ⟨40, _⟩ => ⟨S850000, .i32⟩
  | .hbm, ⟨41, _⟩ => ⟨S850000, .i1⟩
  | .hbm, ⟨42, _⟩ => ⟨S_, .i32⟩
  | .hbm, ⟨43, _⟩ => ⟨S850000, .i32⟩
  | .hbm, ⟨44, _⟩ => ⟨S850000, .i32⟩
  | .hbm, ⟨45, _⟩ => ⟨S850000, .i32⟩
  | .hbm, ⟨46, _⟩ => ⟨S850000x1, .i32⟩
  | .hbm, ⟨47, _⟩ => ⟨S850000, .f32⟩
  | .hbm, ⟨48, _⟩ => ⟨S850000, .f32⟩
  | .hbm, ⟨49, _⟩ => ⟨S50000x256, .f32⟩
  | .hbm, ⟨50, _⟩ => ⟨S_, .i32⟩
  | .hbm, ⟨51, _⟩ => ⟨S850000, .i32⟩
  | .hbm, ⟨52, _⟩ => ⟨S850000, .i1⟩
  | .hbm, ⟨53, _⟩ => ⟨S_, .i32⟩
  | .hbm, ⟨54, _⟩ => ⟨S850000, .i32⟩
  | .hbm, ⟨55, _⟩ => ⟨S850000, .i32⟩
  | .hbm, ⟨56, _⟩ => ⟨S850000, .i32⟩
  | .hbm, ⟨57, _⟩ => ⟨S850000x1, .i32⟩
  | .hbm, ⟨58, _⟩ => ⟨S850000x256, .f32⟩
  | .hbm, ⟨59, _⟩ => ⟨S850000x1, .f32⟩
  | .hbm, ⟨60, _⟩ => ⟨S850000x256, .f32⟩
  | .hbm, ⟨61, _⟩ => ⟨S850000x256, .f32⟩
  | .hbm, ⟨62, _⟩ => ⟨S_, .f32⟩
  | .hbm, ⟨63, _⟩ => ⟨S50000x256, .f32⟩
  | .hbm, ⟨64, _⟩ => ⟨S850000x1, .i32⟩
  | .hbm, ⟨65, _⟩ => ⟨S50000x256, .f32⟩
  | .hbm, ⟨66, _⟩ => ⟨S1x256, .f32⟩
  | .hbm, ⟨67, _⟩ => ⟨S50000x256, .f32⟩
  | .hbm, ⟨68, _⟩ => ⟨S50000x256, .f32⟩
  | .hbm, ⟨69, _⟩ => ⟨S_, .f32⟩
  | .hbm, ⟨70, _⟩ => ⟨S50000x256, .f32⟩
  | .hbm, ⟨71, _⟩ => ⟨S50000x256, .f32⟩
  | .hbm, ⟨72, _⟩ => ⟨S50000x128, .f32⟩
  | .hbm, ⟨73, _⟩ => ⟨S_, .i32⟩
  | .hbm, ⟨74, _⟩ => ⟨S850000, .i32⟩
  | .hbm, ⟨75, _⟩ => ⟨S850000, .i1⟩
  | .hbm, ⟨76, _⟩ => ⟨S_, .i32⟩
  | .hbm, ⟨77, _⟩ => ⟨S850000, .i32⟩
  | .hbm, ⟨78, _⟩ => ⟨S850000, .i32⟩
  | .hbm, ⟨79, _⟩ => ⟨S850000, .i32⟩
  | .hbm, ⟨80, _⟩ => ⟨S850000x1, .i32⟩
  | .hbm, ⟨81, _⟩ => ⟨S850000x128, .f32⟩
  | .hbm, ⟨82, _⟩ => ⟨S850000x1, .f32⟩
  | .hbm, ⟨83, _⟩ => ⟨S850000x128, .f32⟩
  | .hbm, ⟨84, _⟩ => ⟨S850000x128, .f32⟩
  | .hbm, ⟨85, _⟩ => ⟨S_, .f32⟩
  | .hbm, ⟨86, _⟩ => ⟨S50000x128, .f32⟩
  | .hbm, ⟨87, _⟩ => ⟨S850000x1, .i32⟩
  | .hbm, ⟨88, _⟩ => ⟨S50000x128, .f32⟩
  | .hbm, ⟨89, _⟩ => ⟨S1x128, .f32⟩
  | .hbm, ⟨90, _⟩ => ⟨S50000x128, .f32⟩
  | .hbm, ⟨91, _⟩ => ⟨S50000x128, .f32⟩
  | .hbm, ⟨92, _⟩ => ⟨S2x100000, .i32⟩
  | .hbm, ⟨93, _⟩ => ⟨S1x100000, .i32⟩
  | .hbm, ⟨94, _⟩ => ⟨S100000, .i32⟩
  | .hbm, ⟨95, _⟩ => ⟨S_, .i32⟩
  | .hbm, ⟨96, _⟩ => ⟨S100000, .i32⟩
  | .hbm, ⟨97, _⟩ => ⟨S100000, .i1⟩
  | .hbm, ⟨98, _⟩ => ⟨S_, .i32⟩
  | .hbm, ⟨99, _⟩ => ⟨S100000, .i32⟩
  | .hbm, ⟨100, _⟩ => ⟨S100000, .i32⟩
  | .hbm, ⟨101, _⟩ => ⟨S100000, .i32⟩
  | .hbm, ⟨102, _⟩ => ⟨S100000x1, .i32⟩
  | .hbm, ⟨103, _⟩ => ⟨S100000x128, .f32⟩
  | .hbm, ⟨104, _⟩ => ⟨S1x100000, .i32⟩
  | .hbm, ⟨105, _⟩ => ⟨S100000, .i32⟩
  | .hbm, ⟨106, _⟩ => ⟨S_, .i32⟩
  | .hbm, ⟨107, _⟩ => ⟨S100000, .i32⟩
  | .hbm, ⟨108, _⟩ => ⟨S100000, .i1⟩
  | .hbm, ⟨109, _⟩ => ⟨S_, .i32⟩
  | .hbm, ⟨110, _⟩ => ⟨S100000, .i32⟩
  | .hbm, ⟨111, _⟩ => ⟨S100000, .i32⟩
  | .hbm, ⟨112, _⟩ => ⟨S100000, .i32⟩
  | .hbm, ⟨113, _⟩ => ⟨S100000x1, .i32⟩
  | .hbm, ⟨114, _⟩ => ⟨S100000x128, .f32⟩
  | .hbm, ⟨115, _⟩ => ⟨S100000x256, .f32⟩
  | .hbm, ⟨116, _⟩ => ⟨S100000x1, .f32⟩
  | .hbm, ⟨117, _⟩ => ⟨S1x1, .f32⟩
  | .hbm, ⟨118, _⟩ => ⟨S100000x1, .f32⟩
  | .hbm, ⟨119, _⟩ => ⟨S100000x1, .f32⟩
  | .hbm, ⟨120, _⟩ => ⟨S100000x1, .f32⟩
  | .hbm, ⟨121, _⟩ => ⟨S100000x1, .f32⟩
  | .hbm, ⟨122, _⟩ => ⟨S_, .f32⟩
  | .hbm, ⟨123, _⟩ => ⟨S100000x1, .f32⟩
  | .hbm, ⟨124, _⟩ => ⟨S100000x1, .f32⟩
  | .hbm, ⟨125, _⟩ => ⟨S_, .f32⟩
  | .hbm, ⟨126, _⟩ => ⟨S100000x1, .f32⟩
  | .hbm, ⟨127, _⟩ => ⟨S100000x1, .f32⟩
  | _, _ => ⟨S2x800000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_c_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_call1_cst : Ref sig .tc := ⟨.hbm, 69, rfl⟩
abbrev main_call1_v0 : Ref sig .tc := ⟨.hbm, 70, rfl⟩
abbrev main_v47 : Ref sig .tc := ⟨.hbm, 71, rfl⟩
abbrev main_v48 : Ref sig .tc := ⟨.hbm, 72, rfl⟩
abbrev main_c_9 : Ref sig .tc := ⟨.hbm, 73, rfl⟩
abbrev main_v49 : Ref sig .tc := ⟨.hbm, 74, rfl⟩
abbrev main_v50 : Ref sig .tc := ⟨.hbm, 75, rfl⟩
abbrev main_c_10 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_11 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_c_12 : Ref sig .tc := ⟨.hbm, 95, rfl⟩
abbrev main_v68 : Ref sig .tc := ⟨.hbm, 96, rfl⟩
abbrev main_v69 : Ref sig .tc := ⟨.hbm, 97, rfl⟩
abbrev main_c_13 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_c_14 : Ref sig .tc := ⟨.hbm, 106, rfl⟩
abbrev main_v77 : Ref sig .tc := ⟨.hbm, 107, rfl⟩
abbrev main_v78 : Ref sig .tc := ⟨.hbm, 108, rfl⟩
abbrev main_c_15 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_cst_16 : Ref sig .tc := ⟨.hbm, 122, rfl⟩
abbrev main_v91 : Ref sig .tc := ⟨.hbm, 123, rfl⟩
abbrev main_v92 : Ref sig .tc := ⟨.hbm, 124, rfl⟩
abbrev main_cst_17 : Ref sig .tc := ⟨.hbm, 125, rfl⟩
abbrev main_v93 : Ref sig .tc := ⟨.hbm, 126, rfl⟩
abbrev main_v94 : Ref sig .tc := ⟨.hbm, 127, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  transposes_S100000x2_S2x100000_1_0 : S100000x2.Transposes [1, 0] S2x100000
  slices_S2x100000_S1x100000_0_0 : S2x100000.Slices ![0, 0] S1x100000
  shapeCasts_S1x100000_S100000 : S1x100000.ShapeCasts S100000
  bcast_S_S100000 : S_.BroadcastsInDim S100000 (![] : Fin 0 → Fin S100000.rank)
  bcast_S100000_S100000x1_0 : S100000.BroadcastsInDim S100000x1 (![0] : Fin 1 → Fin S100000x1.rank)
  slices_S2x100000_S1x100000_1_0 : S2x100000.Slices ![1, 0] S1x100000
  concatenates_S100000x128_S100000x128_S100000x256_d1 : Shape.Concatenates [S100000x128, S100000x128] S100000x256 1
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  bcast_S_S100000x1 : S_.BroadcastsInDim S100000x1 (![] : Fin 0 → Fin S100000x1.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x256_S50000x256_1_0_0_1_n_n_wf : DotDims.WF S50000x128 S128x256 S50000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S50000x256_S256x128_S50000x128_1_0_0_1_n_n_wf : DotDims.WF S50000x256 S256x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  gather_S50000x128_S100000x1_S100000x128_1_0_n_n_0_1_1128_wf : GatherDims.WF S50000x128 S100000x1 S100000x128 [1] [0] [] [0] [] 1 ![1, 128]
  dot_S100000x256_S256x1_S100000x1_1_0_0_1_n_n_wf : DotDims.WF S100000x256 S256x1 S100000x1 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def gather_S50000x128_S100000x1_S100000x128_1_0_n_n_0_1_1128 : GatherDims S50000x128 S100000x1 S100000x128 where
  offsetDims := [1]
  collapsedSliceDims := [0]
  operandBatchingDims := []
  startIndicesBatchingDims := []
  startIndexMap := [0]
  indexVectorDim := 1
  sliceSizes := ![1, 128]
  wf := gather_S50000x128_S100000x1_S100000x128_1_0_n_n_0_1_1128_wf
def dot_S100000x256_S256x1_S100000x1_1_0_0_1_n_n : DotDims S100000x256 S256x1 S100000x1 where
  lhsContracting := [1]
  rhsContracting := [0]
  lhsNonContracting := [0]
  rhsNonContracting := [1]
  lhsBatch := []
  rhsBatch := []
  wf := dot_S100000x256_S256x1_S100000x1_1_0_0_1_n_n_wf

class Facts : Prop extends Facts₀ where

variable [Facts]
-- ==== Proof.FoldEntry.lean ====
/-
  What the kernel program's buffers hold when its first region is entered, named by the reference's stages.
  Before the first dense product both programs run the same host operations on the edge list: the source and
  target node of every edge followed by the self loops, the node degrees by a scatter-add of ones, their
  inverse square roots where positive, and the product of the two gathered factors per edge.  The kernel
  program's buffers after those operations are therefore the reference's stages of the same edge list, by
  unfolding both; the float arguments are still as launched.
-/
import proofs.«112724_j17119739641949_1_alg».proof.Proof.KernelRun
import proofs.«112724_j17119739641949_1_alg».proof.Proof.RefRead
import Idealize.ShloMosaic.Lib.StableHlo.Run

set_option maxRecDepth 16384

noncomputable section

namespace Cert.KernelIdeal.Fold

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg) (c : Dev nD)

/-- The edge list as launched. -/
abbrev edges : (⟨S2x800000, .i32⟩ : BufTy).Contents (Elt F) := m ((c.tc : Thread nD τ).loc main_arg0)

/-- Source nodes (with self loops) at the first region's entry. -/
theorem rows_at_entry :
    W3 (F := F) m ρ c (Proc.devRef .tc main_v3) = Cert.ReferenceIdeal.ReadP.val_main_v3 (F := F) (edges m c) := by
  show StableHlo.after hostOps0_2 (StableHlo.after hostOps0_1 (StableHlo.after hostOps0 (W0 m ρ c))) (Proc.devRef .tc main_v3) = _
  after_results_simp
  rfl

/-- Target nodes (with self loops) at the first region's entry. -/
theorem cols_at_entry :
    W3 (F := F) m ρ c (Proc.devRef .tc main_v6) = Cert.ReferenceIdeal.ReadP.val_main_v6 (F := F) (edges m c) := by
  show StableHlo.after hostOps0_2 (StableHlo.after hostOps0_1 (StableHlo.after hostOps0 (W0 m ρ c))) (Proc.devRef .tc main_v6) = _
  after_results_simp
  rfl

set_option maxHeartbeats 2000000 in
/-- The per-edge normalisation, as a column, at the first region's entry. -/
theorem norm_at_entry :
    W3 (F := F) m ρ c (Proc.devRef .tc main_v30) = Cert.ReferenceIdeal.ReadP.val_main_v38 (F := F) (edges m c) := by
  show StableHlo.after hostOps0_2 (StableHlo.after hostOps0_1 (StableHlo.after hostOps0 (W0 m ρ c))) (Proc.devRef .tc main_v30) = _
  after_results_simp
  rfl

end Cert.KernelIdeal.Fold

end
-- ==== Proof.Spec.lean ====
/-
  The mathematics both programs compute, as plain functions on index-addressed arrays of extended reals.

  A two-layer graph convolution followed by a pair-scoring head.  Each layer multiplies the node features by a
  weight matrix (`matProd`), spreads the rows along the normalised edges (a gather, a scaling and a scatter-add,
  which both programs perform with the same host operations and which is therefore never opened here), and adds
  a bias row to every node — followed by `max · 0` after the first layer (`rowBiasRelu`) and by nothing after the
  second (`rowBias`).  The head takes two gathered rows per pair, contracts each with one half of a 256-entry
  weight column, adds the two sums and a scalar bias, and applies the logistic function (`pairScore`).
-/
import Idealize.ShloMosaic.PureOps.Ideal
import Idealize.ShloMosaic.Lib.ValueIdx

noncomputable section

namespace Cert.GcnSpec

open Idealize.ShloMosaic Idealize.ShloMosaic.ValueIdx

/-- The product of an `M × K` matrix with a `K × N` matrix: entry `(r, c)` is `∑ k, x (r, k) · w (k, c)`. -/
def matProd (M K N : Nat) (x : (⟨2, ![M, K]⟩ : Shape).Idx → EReal) (w : (⟨2, ![K, N]⟩ : Shape).Idx → EReal) :
    (⟨2, ![M, N]⟩ : Shape).Idx → EReal :=
  fun i => ∑ k : Fin K, x (ix2 (i 0) k) * w (ix2 k (i 1))

/-- A length-`N` vector laid out as the single row of a `1 × N` matrix. -/
def asRow (N : Nat) (b : (⟨1, ![N]⟩ : Shape).Idx → EReal) : (⟨2, ![1, N]⟩ : Shape).Idx → EReal :=
  fun i => b (ix1 (i 1))

/-- Every row of `x` plus the one row `b`. -/
def rowBias (M N : Nat) (x : (⟨2, ![M, N]⟩ : Shape).Idx → EReal) (b : (⟨2, ![1, N]⟩ : Shape).Idx → EReal) :
    (⟨2, ![M, N]⟩ : Shape).Idx → EReal :=
  fun i => x i + b (ix2 0 (i 1))

/-- Every row of `x` plus the one row `b`, then the positive part. -/
def rowBiasRelu (M N : Nat) (x : (⟨2, ![M, N]⟩ : Shape).Idx → EReal) (b : (⟨2, ![1, N]⟩ : Shape).Idx → EReal) :
    (⟨2, ![M, N]⟩ : Shape).Idx → EReal :=
  fun i => max (x i + b (ix2 0 (i 1))) 0

/-- Entries `0 … 127` of a `256 × 1` column, laid out as a `1 × 128` row. -/
def lowerHalfRow (v : (⟨2, ![256, 1]⟩ : Shape).Idx → EReal) : (⟨2, ![1, 128]⟩ : Shape).Idx → EReal :=
  fun i => v (ix2 ⟨(i 1).val, by have h : (i 1).val < 128 := (i 1).isLt; show (i 1).val < 256; omega⟩ 0)

/-- Entries `128 … 255` of a `256 × 1` column, laid out as a `1 × 128` row. -/
def upperHalfRow (v : (⟨2, ![256, 1]⟩ : Shape).Idx → EReal) : (⟨2, ![1, 128]⟩ : Shape).Idx → EReal :=
  fun i => v (ix2 ⟨128 + (i 1).val, by have h : (i 1).val < 128 := (i 1).isLt; show 128 + (i 1).val < 256; omega⟩ 0)

/-- The score of pair `r`: the logistic function of `⟨p1 r, w1⟩ + ⟨p2 r, w2⟩ + β`. -/
def pairScore (M D : Nat) (p1 p2 : (⟨2, ![M, D]⟩ : Shape).Idx → EReal) (w1 w2 : (⟨2, ![1, D]⟩ : Shape).Idx → EReal)
    (β : (⟨2, ![1, 1]⟩ : Shape).Idx → EReal) : (⟨2, ![M, 1]⟩ : Shape).Idx → EReal :=
  fun i => Ideal.logistic ((∑ k : Fin D, p1 (ix2 (i 0) k) * w1 (ix2 0 k)) + (∑ k : Fin D, p2 (ix2 (i 0) k) * w2 (ix2 0 k))
    + β (ix2 0 0))

end Cert.GcnSpec

end
-- ==== Proof.Fold.lean ====
/-
  The kernel program's result, read back through its run and named by the reference's stages.

  The run leaves, at each boundary between host operations and kernel regions, every buffer at a known
  function of the contents at the boundary before.  Walking that fold forwards from the launch:
    * the first region's output is the product of the features with the first weight matrix — the reference's
      first `dot_general`;
    * the host operations that follow gather its rows along the edges, scale them and scatter-add them per
      target node: the same operations, on the same edge data, as the reference applies to its own product;
    * the second region adds the bias row and takes the positive part, the third multiplies by the second
      weight matrix, the host spreads along the edges again, the fourth region adds the second bias row;
    * the last host operations gather two rows per pair — the pair's two node numbers are the two columns of the
      pair table, which the kernel program slices out directly and the reference after a transposition —, and
      the last region scores each pair.
  Every step is either one of the interface facts this section assumes (a region's output as a plain function of
  its inputs; a reference stage as the same plain function; a small re-laying read at an index) or the identity
  of two spellings of the same host operations.
-/
import proofs.«112724_j17119739641949_1_alg».proof.Proof.FoldEntry
import proofs.«112724_j17119739641949_1_alg».proof.Proof.Spec

set_option maxRecDepth 16384

noncomputable section

namespace Cert.KernelIdeal.Fold

open Cert.KernelIdeal Cert.KernelIdeal.Gen Cert.GcnSpec Cert.ReferenceIdeal.ReadP
open Idealize.ShloMosaic Idealize.ShloMosaic.TcCoe Idealize.SL.Sem Idealize.ShloMosaic.StableHlo

section Generic

variable {F : FTy → Type} [FloatOps F]
variable (m : (ℓ : Loc nD τ sig) → Buf (Elt F) ℓ) (ρ : Dev nD → PrngReg) (c : Dev nD)

/-! ## The arguments as launched -/

abbrev feats : (⟨S50000x128, .f32⟩ : BufTy).Contents (Elt F) := m ((c.tc : Thread nD τ).loc main_arg1)
abbrev pairs : (⟨S100000x2, .i32⟩ : BufTy).Contents (Elt F) := m ((c.tc : Thread nD τ).loc main_arg2)
abbrev w1 : (⟨S128x256, .f32⟩ : BufTy).Contents (Elt F) := m ((c.tc : Thread nD τ).loc main_arg3)
abbrev b1 : (⟨S256, .f32⟩ : BufTy).Contents (Elt F) := m ((c.tc : Thread nD τ).loc main_arg4)
abbrev w2 : (⟨S256x128, .f32⟩ : BufTy).Contents (Elt F) := m ((c.tc : Thread nD τ).loc main_arg5)
abbrev b2 : (⟨S128, .f32⟩ : BufTy).Contents (Elt F) := m ((c.tc : Thread nD τ).loc main_arg6)
abbrev wl : (⟨S256x1, .f32⟩ : BufTy).Contents (Elt F) := m ((c.tc : Thread nD τ).loc main_arg7)
abbrev bl : (⟨S1, .f32⟩ : BufTy).Contents (Elt F) := m ((c.tc : Thread nD τ).loc main_arg8)

/-! ## Buffers no operation writes keep their contents across each stretch of host operations -/

/-- Across the host operations before the first region. -/
theorem keep_entry (b : Ref sig .tc)
    (h : StableHlo.after hostOps0_2 (StableHlo.after hostOps0_1 (StableHlo.after hostOps0 (W0 (F := F) m ρ c))) (Proc.devRef .tc b)
      = W0 m ρ c (Proc.devRef .tc b)) :
    W3 (F := F) m ρ c (Proc.devRef .tc b) = m ((c.tc : Thread nD τ).loc b) := h

theorem feats_at_entry : V3 (F := F) m ρ c main_arg1 = feats m c :=
  keep_entry m ρ c main_arg1 (by after_results_simp)
theorem w1_at_entry : V3 (F := F) m ρ c main_arg3 = w1 m c :=
  keep_entry m ρ c main_arg3 (by after_results_simp)
theorem b1_at_entry : W3 (F := F) m ρ c (Proc.devRef .tc main_arg4) = b1 m c :=
  keep_entry m ρ c main_arg4 (by after_results_simp)
theorem w2_at_entry : W3 (F := F) m ρ c (Proc.devRef .tc main_arg5) = w2 m c :=
  keep_entry m ρ c main_arg5 (by after_results_simp)
theorem b2_at_entry : W3 (F := F) m ρ c (Proc.devRef .tc main_arg6) = b2 m c :=
  keep_entry m ρ c main_arg6 (by after_results_simp)
theorem pairs_at_entry : W3 (F := F) m ρ c (Proc.devRef .tc main_arg2) = pairs m c :=
  keep_entry m ρ c main_arg2 (by after_results_simp)
theorem wl_at_entry : W3 (F := F) m ρ c (Proc.devRef .tc main_arg7) = wl m c :=
  keep_entry m ρ c main_arg7 (by after_results_simp)
theorem bl_at_entry : W3 (F := F) m ρ c (Proc.devRef .tc main_arg8) = bl m c :=
  keep_entry m ρ c main_arg8 (by after_results_simp)

/-- Across the host operations between the first and the second region. -/
theorem keep_one (b : Ref sig .tc) (hw : ∀ w, Pipeline.arrRef spec0 w ≠ b)
    (h : StableHlo.after hostOps1 (W4 (F := F) m ρ c) (Proc.devRef .tc b) = W4 m ρ c (Proc.devRef .tc b)) :
    W5 (F := F) m ρ c (Proc.devRef .tc b) = W3 m ρ c (Proc.devRef .tc b) :=
  h.trans (W4_of_ne m ρ c b hw)

/-- Across the second and third regions and the host operations after them. -/
theorem keep_two (b : Ref sig .tc) (h1 : ∀ w, Pipeline.arrRef spec1 w ≠ b) (h2 : ∀ w, Pipeline.arrRef spec2 w ≠ b)
    (h : StableHlo.after hostOps3 (W7 (F := F) m ρ c) (Proc.devRef .tc b) = W7 m ρ c (Proc.devRef .tc b)) :
    W8 (F := F) m ρ c (Proc.devRef .tc b) = W5 m ρ c (Proc.devRef .tc b) :=
  h.trans ((W7_of_ne m ρ c b h2).trans (W6_of_ne m ρ c b h1))

/-! ## The host operations both programs share, as the reference spells them, of the rows they act on -/

/-- The first layer's spreading along the edges — gather the rows at the source nodes, scale each by its edge's weight,
    scatter-add at the target nodes — of the 256-feature rows it spreads. -/
def spreadOne (x0 : (⟨S2x800000, .i32⟩ : BufTy).Contents (Elt F)) (h : (⟨S50000x256, .f32⟩ : BufTy).Contents (Elt F)) :
    (⟨S50000x256, .f32⟩ : BufTy).Contents (Elt F) :=
  Host.scatterAdd Cert.ReferenceIdeal.scatter_S50000x256_S850000x1_S850000x256_1_0_0_1 (val_main_v41 (F := F)) (val_main_v42 (F := F) x0)
    (mulf (Host.gather Cert.ReferenceIdeal.gather_S50000x256_S850000x1_S850000x256_1_0_n_n_0_1_1256 h (val_main_v36 (F := F) x0))
      (val_main_v39 (F := F) x0))

theorem spreadOne_ref (x0 : (⟨S2x800000, .i32⟩ : BufTy).Contents (Elt F)) (x1 : (⟨S50000x128, .f32⟩ : BufTy).Contents (Elt F))
    (x3 : (⟨S128x256, .f32⟩ : BufTy).Contents (Elt F)) :
    val_main_v43 (F := F) x0 x1 x3 = spreadOne x0 (val_main_v30 (F := F) x1 x3) := rfl

/-- The second layer's spreading along the edges, of the 128-feature rows it spreads. -/
def spreadTwo (x0 : (⟨S2x800000, .i32⟩ : BufTy).Contents (Elt F)) (h : (⟨S50000x128, .f32⟩ : BufTy).Contents (Elt F)) :
    (⟨S50000x128, .f32⟩ : BufTy).Contents (Elt F) :=
  Host.scatterAdd Cert.ReferenceIdeal.scatter_S50000x128_S850000x1_S850000x128_1_0_0_1 (val_main_v59 (F := F)) (val_main_v60 (F := F) x0)
    (mulf (Host.gather Cert.ReferenceIdeal.gather_S50000x128_S850000x1_S850000x128_1_0_n_n_0_1_1128 h (val_main_v54 (F := F) x0))
      (val_main_v57 (F := F) x0))

theorem spreadTwo_ref (x0 : (⟨S2x800000, .i32⟩ : BufTy).Contents (Elt F)) (x1 : (⟨S50000x128, .f32⟩ : BufTy).Contents (Elt F))
    (x3 : (⟨S128x256, .f32⟩ : BufTy).Contents (Elt F)) (x4 : (⟨S256, .f32⟩ : BufTy).Contents (Elt F))
    (x5 : (⟨S256x128, .f32⟩ : BufTy).Contents (Elt F)) :
    val_main_v61 (F := F) x0 x1 x3 x4 x5 = spreadTwo x0 (val_main_v48 (F := F) x0 x1 x3 x4 x5) := rfl

/-- A column of node numbers made ready for a gather: a negative number counts back from the 50000 nodes; then the unit
    axis the gather wants (the kernel program's spelling). -/
abbrev wrapNode (q : (⟨S100000, .i32⟩ : BufTy).Contents (Elt F)) : (⟨S100000x1, .i32⟩ : BufTy).Contents (Elt F) :=
  broadcastInDim S100000x1 ![0] bcast_S100000_S100000x1_0
    (select (cmpi .slt q (broadcastInDim S100000 ![] bcast_S_S100000 (constantI S_ 32 0#32)))
      (addi q (broadcastInDim S100000 ![] bcast_S_S100000 (constantI S_ 32 50000#32))) q)

/-! ## Edge data at the later boundaries: no region and no later host operation writes them -/

theorem rows_at_fourth : W7 (F := F) m ρ c (Proc.devRef .tc main_v3) = val_main_v3 (F := F) (edges m c) :=
  (W7_of_ne m ρ c main_v3 (by decide)).trans ((W6_of_ne m ρ c main_v3 (by decide)).trans
    ((keep_one m ρ c main_v3 (by decide) (by after_results_simp)).trans (rows_at_entry m ρ c)))
theorem cols_at_fourth : W7 (F := F) m ρ c (Proc.devRef .tc main_v6) = val_main_v6 (F := F) (edges m c) :=
  (W7_of_ne m ρ c main_v6 (by decide)).trans ((W6_of_ne m ρ c main_v6 (by decide)).trans
    ((keep_one m ρ c main_v6 (by decide) (by after_results_simp)).trans (cols_at_entry m ρ c)))
theorem norm_at_fourth : W7 (F := F) m ρ c (Proc.devRef .tc main_v30) = val_main_v38 (F := F) (edges m c) :=
  (W7_of_ne m ρ c main_v30 (by decide)).trans ((W6_of_ne m ρ c main_v30 (by decide)).trans
    ((keep_one m ρ c main_v30 (by decide) (by after_results_simp)).trans (norm_at_entry m ρ c)))

theorem w2_at_third : V6 (F := F) m ρ c main_arg5 = w2 m c :=
  (W6_of_ne m ρ c main_arg5 (by decide)).trans ((keep_one m ρ c main_arg5 (by decide) (by after_results_simp)).trans (w2_at_entry m ρ c))
theorem b2_at_fourth : W7 (F := F) m ρ c (Proc.devRef .tc main_arg6) = b2 m c :=
  (W7_of_ne m ρ c main_arg6 (by decide)).trans ((W6_of_ne m ρ c main_arg6 (by decide)).trans
    ((keep_one m ρ c main_arg6 (by decide) (by after_results_simp)).trans (b2_at_entry m ρ c)))
theorem pairs_at_last : W9 (F := F) m ρ c (Proc.devRef .tc main_arg2) = pairs m c :=
  (W9_of_ne m ρ c main_arg2 (by decide)).trans ((keep_two m ρ c main_arg2 (by decide) (by decide) (by after_results_simp)).trans
    ((keep_one m ρ c main_arg2 (by decide) (by after_results_simp)).trans (pairs_at_entry m ρ c)))
theorem wl_at_last : W9 (F := F) m ρ c (Proc.devRef .tc main_arg7) = wl m c :=
  (W9_of_ne m ρ c main_arg7 (by decide)).trans ((keep_two m ρ c main_arg7 (by decide) (by decide) (by after_results_simp)).trans
    ((keep_one m ρ c main_arg7 (by decide) (by after_results_simp)).trans (wl_at_entry m ρ c)))
theorem bl_at_last : W9 (F := F) m ρ c (Proc.devRef .tc main_arg8) = bl m c :=
  (W9_of_ne m ρ c main_arg8 (by decide)).trans ((keep_two m ρ c main_arg8 (by decide) (by decide) (by after_results_simp)).trans
    ((keep_one m ρ c main_arg8 (by decide) (by after_results_simp)).trans (bl_at_entry m ρ c)))

/-! ## The spreading stretches: the same host operations on the same edge data -/

theorem spread_one_at :
    W5 (F := F) m ρ c (Proc.devRef .tc main_v43) = spreadOne (edges m c) (W4 m ρ c (Proc.devRef .tc main_v31)) := by
  show StableHlo.after hostOps1 (W4 m ρ c) (Proc.devRef .tc main_v43) = _
  after_results_simp
  rw [W4_of_ne (F := F) m ρ c main_v6 (by decide), W4_of_ne (F := F) m ρ c main_v3 (by decide),
    W4_of_ne (F := F) m ρ c main_v30 (by decide), cols_at_entry m ρ c, rows_at_entry m ρ c, norm_at_entry m ρ c]
  rfl

theorem spread_two_at :
    W8 (F := F) m ρ c (Proc.devRef .tc main_v58) = spreadTwo (edges m c) (W7 m ρ c (Proc.devRef .tc main_v46)) := by
  show StableHlo.after hostOps3 (W7 m ρ c) (Proc.devRef .tc main_v58) = _
  after_results_simp
  rw [cols_at_fourth m ρ c, rows_at_fourth m ρ c, norm_at_fourth m ρ c]
  rfl

end Generic

/-! ## The chain, under the interface facts -/

section Chain

variable (m : (ℓ : Loc nD τ sig) → Buf (Elt Ideal) ℓ) (ρ : Dev nD → PrngReg) (c : Dev nD)

variable
  (hP1 : ∀ (V : (c : Dev nD) → (b : Ref sig .tc) → Buf (Elt Ideal) ((c : Thread nD τ).loc b)) (c : Dev nD),
    (dat0 (F := Ideal) V c).arrAt 2 cfg0.N = matProd 50000 128 256 (V c main_arg1) (V c main_arg3))
  (hB1 : ∀ (V : (c : Dev nD) → (b : Ref sig .tc) → Buf (Elt Ideal) ((c : Thread nD τ).loc b)) (c : Dev nD),
    (dat1 (F := Ideal) V c).arrAt 2 cfg1.N = rowBiasRelu 50000 256 (V c main_v43) (V c main_v44))
  (hP2 : ∀ (V : (c : Dev nD) → (b : Ref sig .tc) → Buf (Elt Ideal) ((c : Thread nD τ).loc b)) (c : Dev nD),
    (dat2 (F := Ideal) V c).arrAt 2 cfg2.N = matProd 50000 256 128 (V c main_v45) (V c main_arg5))
  (hB2 : ∀ (V : (c : Dev nD) → (b : Ref sig .tc) → Buf (Elt Ideal) ((c : Thread nD τ).loc b)) (c : Dev nD),
    (dat3 (F := Ideal) V c).arrAt 2 cfg3.N = rowBias 50000 128 (V c main_v58) (V c main_v59))
  (hH : ∀ (V : (c : Dev nD) → (b : Ref sig .tc) → Buf (Elt Ideal) ((c : Thread nD τ).loc b)) (c : Dev nD),
    (dat4 (F := Ideal) V c).arrAt 5 cfg4.N
      = pairScore 100000 128 (V c main_v71) (V c main_v78) (V c main_v80) (V c main_v82) (V c main_v83))
  (rP1 : ∀ x1 x3, val_main_v30 (F := Ideal) x1 x3 = matProd 50000 128 256 x1 x3)
  (rB1 : ∀ x0 x1 x3 x4, val_main_v47 (F := Ideal) x0 x1 x3 x4
    = rowBiasRelu 50000 256 (val_main_v43 (F := Ideal) x0 x1 x3) (asRow 256 x4))
  (rP2 : ∀ x0 x1 x3 x4 x5, val_main_v48 (F := Ideal) x0 x1 x3 x4 x5
    = matProd 50000 256 128 (val_main_v47 (F := Ideal) x0 x1 x3 x4) x5)
  (rB2 : ∀ x0 x1 x3 x4 x5 x6, val_main_v64 (F := Ideal) x0 x1 x3 x4 x5 x6
    = rowBias 50000 128 (val_main_v61 (F := Ideal) x0 x1 x3 x4 x5) (asRow 128 x6))
  (rH : ∀ x0 x1 x2 x3 x4 x5 x6 x7 x8, val_main_v94 (F := Ideal) x0 x1 x2 x3 x4 x5 x6 x7 x8
    = pairScore 100000 128 (val_main_v74 (F := Ideal) x0 x1 x2 x3 x4 x5 x6) (val_main_v83 (F := Ideal) x0 x1 x2 x3 x4 x5 x6)
        (lowerHalfRow x7) (upperHalfRow x7) (asRow 1 x8))
  (lB256 : ∀ x : S256.Idx → EReal, shapeCast S1x256 x shapeCasts_S256_S1x256 = asRow 256 x)
  (lB128 : ∀ x : S128.Idx → EReal, shapeCast S1x128 x shapeCasts_S128_S1x128 = asRow 128 x)
  (lB1 : ∀ x : S1.Idx → EReal, shapeCast S1x1 x shapeCasts_S1_S1x1 = asRow 1 x)
  (lWlo : ∀ v : S256x1.Idx → EReal,
    shapeCast S1x128 (extractStridedSlice S128x1 ![0, 0] v slices_S256x1_S128x1_0_0) shapeCasts_S128x1_S1x128 = lowerHalfRow v)
  (lWhi : ∀ v : S256x1.Idx → EReal,
    shapeCast S1x128 (extractStridedSlice S128x1 ![128, 0] v slices_S256x1_S128x1_128_0) shapeCasts_S128x1_S1x128 = upperHalfRow v)
  (mC0 : ∀ x2 : (⟨S100000x2, .i32⟩ : BufTy).Contents (Elt Ideal),
    shapeCast S100000 (extractStridedSlice S100000x1 ![0, 0] x2 slices_S100000x2_S100000x1_0_0) shapeCasts_S100000x1_S100000
      = val_main_v67 (F := Ideal) x2)
  (mC1 : ∀ x2 : (⟨S100000x2, .i32⟩ : BufTy).Contents (Elt Ideal),
    shapeCast S100000 (extractStridedSlice S100000x1 ![0, 1] x2 slices_S100000x2_S100000x1_0_1) shapeCasts_S100000x1_S100000
      = val_main_v76 (F := Ideal) x2)

include hP1 rP1 in
/-- The first region leaves the reference's first product. -/
theorem product_one_at :
    W4 (F := Ideal) m ρ c (Proc.devRef .tc main_v31) = val_main_v30 (F := Ideal) (feats m c) (w1 m c) := by
  refine (W4_arr (F := Ideal) m ρ c 2).trans ((hP1 (V3 m ρ) c).trans ?_)
  rw [feats_at_entry m ρ c, w1_at_entry m ρ c]
  exact (rP1 _ _).symm

include hP1 rP1 in
/-- … spread along the edges: the reference's first aggregate. -/
theorem agg_one_at :
    V5 (F := Ideal) m ρ c main_v43 = val_main_v43 (F := Ideal) (edges m c) (feats m c) (w1 m c) := by
  refine (spread_one_at m ρ c).trans ?_
  rw [product_one_at m ρ c hP1 rP1]
  exact (spreadOne_ref _ _ _).symm

include lB256 in
/-- The first bias, as a row, at the second region's entry. -/
theorem bias_one_at : V5 (F := Ideal) m ρ c main_v44 = asRow 256 (b1 m c) := by
  show StableHlo.after hostOps1 (W4 m ρ c) (Proc.devRef .tc main_v44) = _
  after_results_simp
  rw [W4_of_ne (F := Ideal) m ρ c main_arg4 (by decide), b1_at_entry m ρ c]
  exact lB256 _

include hP1 rP1 hB1 rB1 lB256 in
/-- The second region leaves the reference's hidden features. -/
theorem hidden_at :
    V6 (F := Ideal) m ρ c main_v45 = val_main_v47 (F := Ideal) (edges m c) (feats m c) (w1 m c) (b1 m c) := by
  refine (W6_arr (F := Ideal) m ρ c 2).trans ((hB1 (V5 m ρ) c).trans ?_)
  rw [agg_one_at m ρ c hP1 rP1, bias_one_at m ρ c lB256]
  exact (rB1 _ _ _ _).symm

include hP1 rP1 hB1 rB1 lB256 hP2 rP2 in
/-- The third region leaves the reference's second product. -/
theorem product_two_at :
    W7 (F := Ideal) m ρ c (Proc.devRef .tc main_v46)
      = val_main_v48 (F := Ideal) (edges m c) (feats m c) (w1 m c) (b1 m c) (w2 m c) := by
  refine (W7_arr (F := Ideal) m ρ c 2).trans ((hP2 (V6 m ρ) c).trans ?_)
  rw [hidden_at m ρ c hP1 hB1 rP1 rB1 lB256, w2_at_third m ρ c]
  exact (rP2 _ _ _ _ _).symm

include hP1 rP1 hB1 rB1 lB256 hP2 rP2 in
theorem agg_two_at :
    V8 (F := Ideal) m ρ c main_v58 = val_main_v61 (F := Ideal) (edges m c) (feats m c) (w1 m c) (b1 m c) (w2 m c) := by
  refine (spread_two_at m ρ c).trans ?_
  rw [product_two_at m ρ c hP1 hB1 hP2 rP1 rB1 rP2 lB256]
  exact (spreadTwo_ref _ _ _ _ _).symm

include lB128 in
theorem bias_two_at : V8 (F := Ideal) m ρ c main_v59 = asRow 128 (b2 m c) := by
  show StableHlo.after hostOps3 (W7 m ρ c) (Proc.devRef .tc main_v59) = _
  after_results_simp
  rw [b2_at_fourth m ρ c]
  exact lB128 _

include hP1 rP1 hB1 rB1 lB256 hP2 rP2 hB2 rB2 lB128 in
/-- The fourth region leaves the reference's node embeddings. -/
theorem output_two_at :
    W9 (F := Ideal) m ρ c (Proc.devRef .tc main_v60)
      = val_main_v64 (F := Ideal) (edges m c) (feats m c) (w1 m c) (b1 m c) (w2 m c) (b2 m c) := by
  refine (W9_arr (F := Ideal) m ρ c 2).trans ((hB2 (V8 m ρ) c).trans ?_)
  rw [agg_two_at m ρ c hP1 hB1 hP2 rP1 rB1 rP2 lB256, bias_two_at m ρ c lB128]
  exact (rB2 _ _ _ _ _ _).symm

include hP1 rP1 hB1 rB1 lB256 hP2 rP2 hB2 rB2 lB128 mC0 in
/-- The rows gathered at each pair's first node. -/
theorem first_rows_at :
    V10 (F := Ideal) m ρ c main_v71
      = val_main_v74 (F := Ideal) (edges m c) (feats m c) (pairs m c) (w1 m c) (b1 m c) (w2 m c) (b2 m c) := by
  show StableHlo.after hostOps4 (W9 m ρ c) (Proc.devRef .tc main_v71) = _
  after_results_simp
  rw [pairs_at_last m ρ c, output_two_at m ρ c hP1 hB1 hP2 hB2 rP1 rB1 rP2 rB2 lB256 lB128]
  show Host.gather gather_S50000x128_S100000x1_S100000x128_1_0_n_n_0_1_1128 _
    (wrapNode (shapeCast S100000 (extractStridedSlice S100000x1 ![0, 0] (pairs m c) slices_S100000x2_S100000x1_0_0) shapeCasts_S100000x1_S100000)) = _
  rw [mC0]
  rfl

include hP1 rP1 hB1 rB1 lB256 hP2 rP2 hB2 rB2 lB128 mC1 in
/-- The rows gathered at each pair's second node. -/
theorem second_rows_at :
    V10 (F := Ideal) m ρ c main_v78
      = val_main_v83 (F := Ideal) (edges m c) (feats m c) (pairs m c) (w1 m c) (b1 m c) (w2 m c) (b2 m c) := by
  show StableHlo.after hostOps4 (W9 m ρ c) (Proc.devRef .tc main_v78) = _
  after_results_simp
  rw [pairs_at_last m ρ c, output_two_at m ρ c hP1 hB1 hP2 hB2 rP1 rB1 rP2 rB2 lB256 lB128]
  show Host.gather gather_S50000x128_S100000x1_S100000x128_1_0_n_n_0_1_1128 _
    (wrapNode (shapeCast S100000 (extractStridedSlice S100000x1 ![0, 1] (pairs m c) slices_S100000x2_S100000x1_0_1) shapeCasts_S100000x1_S100000)) = _
  rw [mC1]
  rfl

include lWlo in
theorem lower_at : V10 (F := Ideal) m ρ c main_v80 = lowerHalfRow (wl m c) := by
  show StableHlo.after hostOps4 (W9 m ρ c) (Proc.devRef .tc main_v80) = _
  after_results_simp
  rw [wl_at_last m ρ c]
  exact lWlo _

include lWhi in
theorem upper_at : V10 (F := Ideal) m ρ c main_v82 = upperHalfRow (wl m c) := by
  show StableHlo.after hostOps4 (W9 m ρ c) (Proc.devRef .tc main_v82) = _
  after_results_simp
  rw [wl_at_last m ρ c]
  exact lWhi _

include lB1 in
theorem cell_at : V10 (F := Ideal) m ρ c main_v83 = asRow 1 (bl m c) := by
  show StableHlo.after hostOps4 (W9 m ρ c) (Proc.devRef .tc main_v83) = _
  after_results_simp
  rw [bl_at_last m ρ c]
  exact lB1 _

include hP1 hB1 hP2 hB2 hH rP1 rB1 rP2 rB2 rH lB256 lB128 lB1 lWlo lWhi mC0 mC1 in
/-- THE RESULT: after the run the kernel program's result buffer holds the reference's last stage of the launched arguments. -/
theorem result :
    W11 (F := Ideal) m ρ c (Proc.devRef .tc main_v84)
      = val_main_v94 (F := Ideal) (edges m c) (feats m c) (pairs m c) (w1 m c) (b1 m c) (w2 m c) (b2 m c) (wl m c) (bl m c) := by
  refine (W11_arr (F := Ideal) m ρ c 5).trans ((hH (V10 m ρ) c).trans ?_)
  rw [first_rows_at m ρ c hP1 hB1 hP2 hB2 rP1 rB1 rP2 rB2 lB256 lB128 mC0,
    second_rows_at m ρ c hP1 hB1 hP2 hB2 rP1 rB1 rP2 rB2 lB256 lB128 mC1,
    lower_at m ρ c lWlo, upper_at m ρ c lWhi, cell_at m ρ c lB1]
  exact (rH _ _ _ _ _ _ _ _ _).symm

end Chain

end Cert.KernelIdeal.Fold

end
-- ==== Proof.LayerOneProduct.lean ====
/-
  The first dense product, read off the pipeline.  Grid point `t` stages rows `2000 t … 2000 t + 1999` of the
  node features and the whole 128 × 256 weight matrix, multiplies them into a zero accumulator and writes the
  2000 × 256 block back at the same rows; a change of float format is the identity on extended reals.  The 25
  blocks tile the 50000 rows, so the array the region leaves is the whole matrix product.
-/
import proofs.«112724_j17119739641949_1_alg».proof.Proof.Gen.KernelIdeal.Frame
import proofs.«112724_j17119739641949_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.LayerOneProduct

open Cert.KernelIdeal Cert.KernelIdeal.Gen Cert.GcnSpec
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! ## The block product at an entry -/

/-- Row axis of the left operand: the output's row. -/
theorem lhs_blockDot_0 (i : S2000x256.Idx) (q : dot_S2000x128_S128x256_S2000x256_1_0_0_1_n_n.contr.Idx) :
    (dot_S2000x128_S128x256_S2000x256_1_0_0_1_n_n.lhsIdx i q 0).val = (i 0).val := by
  unfold DotDims.lhsIdx
  rw [dif_neg (show ¬(0 : Fin S2000x128.rank) ∈ dot_S2000x128_S128x256_S2000x256_1_0_0_1_n_n.lhsBatch by decide), dif_pos (show (0 : Fin S2000x128.rank) ∈ dot_S2000x128_S128x256_S2000x256_1_0_0_1_n_n.lhsNonContracting by decide)]
  rfl
/-- Column axis of the left operand: the contracted index. -/
theorem lhs_blockDot_1 (i : S2000x256.Idx) (q : dot_S2000x128_S128x256_S2000x256_1_0_0_1_n_n.contr.Idx) :
    (dot_S2000x128_S128x256_S2000x256_1_0_0_1_n_n.lhsIdx i q 1).val = (q ⟨0, by decide⟩).val :=
  dot_S2000x128_S128x256_S2000x256_1_0_0_1_n_n.lhsIdx_val_of_single rfl i q
/-- Row axis of the right operand: the contracted index. -/
theorem rhs_blockDot_0 (i : S2000x256.Idx) (q : dot_S2000x128_S128x256_S2000x256_1_0_0_1_n_n.contr.Idx) :
    (dot_S2000x128_S128x256_S2000x256_1_0_0_1_n_n.rhsIdx i q 0).val = (q ⟨0, by decide⟩).val :=
  dot_S2000x128_S128x256_S2000x256_1_0_0_1_n_n.rhsIdx_val_of_single rfl i q
/-- Column axis of the right operand: the output's column. -/
theorem rhs_blockDot_1 (i : S2000x256.Idx) (q : dot_S2000x128_S128x256_S2000x256_1_0_0_1_n_n.contr.Idx) :
    (dot_S2000x128_S128x256_S2000x256_1_0_0_1_n_n.rhsIdx i q 1).val = (i 1).val := by
  unfold DotDims.rhsIdx
  rw [dif_neg (show ¬(1 : Fin S128x256.rank) ∈ dot_S2000x128_S128x256_S2000x256_1_0_0_1_n_n.rhsBatch by decide), dif_pos (show (1 : Fin S128x256.rank) ∈ dot_S2000x128_S128x256_S2000x256_1_0_0_1_n_n.rhsNonContracting by decide)]
  rfl

/-- Entry `(p, q)` of what the body computes from a 2000 × 128 block `x0` and the 128 × 256 matrix `x1`:
    the sum over `k` of `x0 (p, k) · x1 (k, q)` (the zero accumulator adds nothing, the format changes are identities). -/
theorem payload_apply (x0 : Vec Ideal S2000x128 .f32) (x1 : Vec Ideal S128x256 .f32) (p : Fin 2000) (q : Fin 256) :
    k0_pay1 (F := Ideal) x0 x1 (ix2 p q) = ∑ k : Fin 128, x0 (ix2 p k) * x1 (ix2 k q) := by
  unfold k0_pay1
  show FloatOps.matmul dot_S2000x128_S128x256_S2000x256_1_0_0_1_n_n none (truncf (F := Ideal) .bf16 (x0 : FVec Ideal S2000x128 .f32) bitsLt_bf16_f32)
      (truncf (F := Ideal) .bf16 (x1 : FVec Ideal S128x256 .f32) bitsLt_bf16_f32) (constant (F := Ideal) S2000x256 .f32 0x00000000#32) (ix2 p q) = _
  rw [Ideal.matmul_constant_zero_apply, ← Equiv.sum_comp (ValueIdx.contrEquiv1 dot_S2000x128_S128x256_S2000x256_1_0_0_1_n_n 128 rfl rfl).symm]
  refine Finset.sum_congr rfl fun k _ => ?_
  have hk := ValueIdx.contrEquiv1_symm_val dot_S2000x128_S128x256_S2000x256_1_0_0_1_n_n 128 rfl rfl k
  have el : dot_S2000x128_S128x256_S2000x256_1_0_0_1_n_n.lhsIdx (ix2 p q) ((ValueIdx.contrEquiv1 dot_S2000x128_S128x256_S2000x256_1_0_0_1_n_n 128 rfl rfl).symm k) = ix2 p k := funext fun a => Fin.ext (by
    match a with
    | ⟨0, _⟩ => exact lhs_blockDot_0 _ _
    | ⟨1, _⟩ => exact (lhs_blockDot_1 _ _).trans hk)
  have er : dot_S2000x128_S128x256_S2000x256_1_0_0_1_n_n.rhsIdx (ix2 p q) ((ValueIdx.contrEquiv1 dot_S2000x128_S128x256_S2000x256_1_0_0_1_n_n 128 rfl rfl).symm k) = ix2 k q := funext fun a => Fin.ext (by
    match a with
    | ⟨0, _⟩ => exact (rhs_blockDot_0 _ _).trans hk
    | ⟨1, _⟩ => exact rhs_blockDot_1 _ _)
  rw [truncf_apply, truncf_apply, el, er]

/-! ## The blocks, read off the arrays -/

theorem zeroOffsets : (![0, 0] : Fin 2 → Nat) = fun _ => 0 := funext fun a => by fin_cases a <;> rfl

/-- The block numbers at grid point `t`: the feature rows and the output rows move with `t`, the weight matrix is
    always its one block, and no window moves along the columns. -/
theorem blockNumbers : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Entry `(p, k)` of the feature block at point `t` is entry `(2000 t + p, k)` of the feature matrix. -/
theorem featureBlock_apply (c : Dev nD) (t : Fin cfg0.N) (p : Fin 2000) (k : Fin 128) (r : Fin 50000)
    (hr : r.val = t.val * 2000 + p.val) :
    (iblk0 V c 0 t : Vec Ideal S2000x128 .f32) (ix2 p k) = (V c main_arg1 : S50000x128.Idx → EReal) (ix2 r k) := by
  obtain ⟨e0, e1, -, -, -, -⟩ := blockNumbers t
  unfold iblk0
  rw [View.read_apply]
  show V c main_arg1 (((cfg0.win 0).blk t).view.emb (ix2 p k)) = V c main_arg1 (ix2 r k)
  congr 1
  funext a
  apply Fin.ext
  match a with
  | ⟨0, _⟩ => show win0_0.index t (0 : Fin 2) * 2000 + 1 * p.val = r.val; omega
  | ⟨1, _⟩ => show win0_0.index t (1 : Fin 2) * 128 + 1 * k.val = k.val; omega

/-- The weight block at every point is the weight matrix. -/
theorem weightBlock_apply (c : Dev nD) (t : Fin cfg0.N) (k : Fin 128) (q : Fin 256) :
    (iblk0 V c 1 t : Vec Ideal S128x256 .f32) (ix2 k q) = (V c main_arg3 : S128x256.Idx → EReal) (ix2 k q) := by
  obtain ⟨-, -, e2, e3, -, -⟩ := blockNumbers t
  unfold iblk0
  rw [View.read_apply]
  show V c main_arg3 (((cfg0.win 1).blk t).view.emb (ix2 k q)) = V c main_arg3 (ix2 k q)
  congr 1
  funext a
  apply Fin.ext
  match a with
  | ⟨0, _⟩ => show win0_1.index t (0 : Fin 2) * 128 + 1 * k.val = k.val; omega
  | ⟨1, _⟩ => show win0_1.index t (1 : Fin 2) * 256 + 1 * q.val = q.val; omega

/-! ## What a point writes back -/

/-- Point `t` writes back block `t` of the matrix product of the two arrays. -/
theorem flushed_eq (c : Dev nD) (t : Fin cfg0.N) :
    (dat0 (F := Ideal) V c).flushed 2 t
      = ((cfg0.win 2).blk t).view.read (Elt Ideal) (matProd 50000 128 256 (V c main_arg1) (V c main_arg3)) := by
  show (cfg0.win 2).cut (grid0.coords t) ((dat0 (F := Ideal) V c).after 2 t) = _
  rw [after0_2]
  unfold out0_2
  rw [View.canon_unit_zero zeroOffsets]
  simp only [View.ld_unit_zero (S := S2000x128) zeroOffsets, View.ld_unit_zero (S := S128x256) zeroOffsets]
  obtain ⟨-, -, -, -, e4, e5⟩ := blockNumbers t
  funext j
  obtain ⟨p, q, rfl⟩ : ∃ (p : Fin 2000) (q : Fin 256), j = ix2 p q := ⟨j 0, j 1, eq_ix2 j⟩
  have hp : p.val < 2000 := p.isLt
  have ht : t.val < 25 := t.isLt
  refine (payload_apply _ _ p q).trans ?_
  rw [View.read_apply]
  have hemb : ((cfg0.win 2).blk t).view.emb (ix2 p q)
      = (ix2 (⟨t.val * 2000 + p.val, by omega⟩ : Fin 50000) q : S50000x256.Idx) := by
    funext a
    apply Fin.ext
    match a with
    | ⟨0, _⟩ => show win0_2.index t (0 : Fin 2) * 2000 + 1 * p.val = t.val * 2000 + p.val; omega
    | ⟨1, _⟩ => show win0_2.index t (1 : Fin 2) * 256 + 1 * q.val = q.val; omega
  show _ = matProd 50000 128 256 (V c main_arg1) (V c main_arg3) (((cfg0.win 2).blk t).view.emb (ix2 p q))
  rw [hemb]
  unfold matProd
  refine Finset.sum_congr rfl fun k _ => ?_
  rw [featureBlock_apply V c t p k ⟨t.val * 2000 + p.val, by omega⟩ rfl, weightBlock_apply V c t k q]

/-! ## The blocks tile the rows -/

/-- An index of the output array is in point `t`'s block iff each coordinate is in the block's range on its axis. -/
theorem mem_outBlock (t : Fin cfg0.N) (i : S50000x256.Idx) :
    i ∈ ((cfg0.win 2).blk t).view.set ↔ ∀ a : Fin 2, win0_2.index t a * S2000x256.size a ≤ (i a).val
      ∧ (i a).val < win0_2.index t a * S2000x256.size a + S2000x256.size a := by
  show i ∈ ((View.whole main_v31).slice (win0_2.rect t)).set ↔ _
  rw [View.set_slice_whole, Rect.mem_set_unit]
  exact Iff.rfl

/-- Row `r` of the output lies in the block of point `r / 2000`, and every point writes its block back. -/
theorem rows_covered (i : S50000x256.Idx) :
    ∃ t : Fin cfg0.N, (cfg0.win 2).flush t = true ∧ i ∈ ((cfg0.win 2).blk t).view.set := by
  have hi0 : (i 0).val < 50000 := (i 0).isLt
  have hi1 : (i 1).val < 256 := (i 1).isLt
  have hN : grid0.N = 25 := N_0
  have hlt : (i 0).val / 2000 < cfg0.N := by show (i 0).val / 2000 < grid0.N; omega
  obtain ⟨-, -, -, -, e4, e5⟩ := blockNumbers ⟨(i 0).val / 2000, hlt⟩
  have e4' : win0_2.index ⟨(i 0).val / 2000, hlt⟩ (0 : Fin 2) = (i 0).val / 2000 := e4
  refine ⟨⟨(i 0).val / 2000, hlt⟩, flush0_2 _, ?_⟩
  rw [mem_outBlock]
  intro a
  match a with
  | ⟨0, _⟩ =>
    show win0_2.index ⟨(i 0).val / 2000, hlt⟩ (0 : Fin 2) * 2000 ≤ (i 0).val
      ∧ (i 0).val < win0_2.index ⟨(i 0).val / 2000, hlt⟩ (0 : Fin 2) * 2000 + 2000
    omega
  | ⟨1, _⟩ =>
    show win0_2.index ⟨(i 0).val / 2000, hlt⟩ (1 : Fin 2) * 256 ≤ (i 1).val
      ∧ (i 1).val < win0_2.index ⟨(i 0).val / 2000, hlt⟩ (1 : Fin 2) * 256 + 256
    omega

/-! ## The array the region leaves -/

/-- After the region, its output array is the product of the two input arrays as the region found them. -/
theorem array_after (c : Dev nD) :
    (dat0 (F := Ideal) V c).arrAt 2 cfg0.N = matProd 50000 128 256 (V c main_arg1) (V c main_arg3) :=
  (dat0 (F := Ideal) V c).arrAt_eq_of_cover 2 (matProd 50000 128 256 (V c main_arg1) (V c main_arg3))
    (fun t _ => flushed_eq V c t) rows_covered

end Cert.KernelIdeal.LayerOneProduct

end
-- ==== Proof.LayerOneBias.lean ====
/-
  The first bias stage, read off the pipeline.  Grid point `t` stages rows `2000 t … 2000 t + 1999` of the
  aggregated features and the one bias row, adds the row to every staged row, takes the maximum with zero and
  writes the block back at the same rows.  The 25 blocks tile the 50000 rows.
-/
import proofs.«112724_j17119739641949_1_alg».proof.Proof.Gen.KernelIdeal.Frame
import proofs.«112724_j17119739641949_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.LayerOneBias

open Cert.KernelIdeal Cert.KernelIdeal.Gen Cert.GcnSpec
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The body's two accesses start at offset zero on both axes. -/
theorem offsets_zero : (![0, 0] : Fin 2 → Nat) = fun _ => 0 := funext fun a => by fin_cases a <;> rfl

/-- The stored value at row `p`, column `q` of a block: the staged entry plus the bias row's entry at `q`, then the
    maximum with zero. -/
theorem payload_apply (x0 : Vec Ideal S2000x256 .f32) (x1 : Vec Ideal S1x256 .f32) (p : Fin 2000) (q : Fin 256) :
    k1_pay1 x0 x1 (ix2 p q) = max (x0 (ix2 p q) + x1 (ix2 (0 : Fin 1) q)) 0 := by
  unfold k1_pay1
  rw [maximumf_apply, addf_apply, broadcast_apply, shapeCast_self, shapeCast_self, broadcastTo_1b_ab_apply]
  show max _ (Ideal.ofBits .f32 0x00000000#32) = _
  rw [Ideal.ofBits_zero_f32]

/-- One entry of `max (x + b) 0`, from the entry of `x` and the entry of the bias row it is made of. -/
theorem entry_of_reads (x : S50000x256.Idx → EReal) (b : S1x256.Idx → EReal) (i i' : S50000x256.Idx) (k : S1x256.Idx)
    (hi : i' = i) (hk : k = ix2 0 (i 1)) : max (x i' + b k) 0 = rowBiasRelu 50000 256 x b i := by
  subst hi hk; rfl

/-- The block indices of the three windows at grid point `t`: the feature and output windows sit at block row `t`,
    the bias window always at its only block. -/
theorem block_indices : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What grid point `t` writes back is block `t` of `max (x + b) 0`. -/
theorem flushed_eq (c : Dev nD) (t : Fin cfg1.N) :
    (dat1 (F := Ideal) V c).flushed 2 t
      = ((cfg1.win 2).blk t).view.read (Elt Ideal) (rowBiasRelu 50000 256 (V c main_v43) (V c main_v44)) := by
  show (cfg1.win 2).cut (grid1.coords t) ((dat1 V c).after 2 t) = _
  rw [after1_2]
  unfold out1_2
  rw [View.canon_unit_zero offsets_zero]
  simp only [View.ld_unit_zero (S := S2000x256) offsets_zero, View.ld_unit_zero (S := S1x256) offsets_zero]
  obtain ⟨e0, e1, e2, e3, e4, e5⟩ := block_indices t
  funext j
  obtain ⟨p, q, rfl⟩ : ∃ (p : Fin 2000) (q : Fin 256), j = ix2 p q := ⟨j 0, j 1, eq_ix2 j⟩
  show k1_pay1 (iblk1 V c 0 t) (iblk1 V c 1 t) (ix2 p q)
    = rowBiasRelu 50000 256 (V c main_v43) (V c main_v44) (((cfg1.win 2).blk t).view.emb (ix2 p q))
  refine (payload_apply (iblk1 V c 0 t) (iblk1 V c 1 t) p q).trans ?_
  -- each staged entry is an entry of its array, at block index × block size + the coordinate inside the block
  have hx : ((cfg1.win 0).blk t).view.emb (ix2 p q) = ((cfg1.win 2).blk t).view.emb (ix2 p q) := by
    funext a; apply Fin.ext
    match a with
    | ⟨0, _⟩ => show win1_0.index t (0 : Fin 2) * 2000 + 1 * p.val = win1_2.index t (0 : Fin 2) * 2000 + 1 * p.val; omega
    | ⟨1, _⟩ => show win1_0.index t (1 : Fin 2) * 256 + 1 * q.val = win1_2.index t (1 : Fin 2) * 256 + 1 * q.val; omega
  have hb : ((cfg1.win 1).blk t).view.emb (ix2 (0 : Fin 1) q)
      = ix2 0 ((((cfg1.win 2).blk t).view.emb (ix2 p q)) 1) := by
    funext a; apply Fin.ext
    match a with
    | ⟨0, _⟩ => show win1_1.index t (0 : Fin 2) * 1 + 1 * 0 = 0; omega
    | ⟨1, _⟩ => show win1_1.index t (1 : Fin 2) * 256 + 1 * q.val = win1_2.index t (1 : Fin 2) * 256 + 1 * q.val; omega
  exact entry_of_reads (V c main_v43) (V c main_v44) (((cfg1.win 2).blk t).view.emb (ix2 p q))
    (((cfg1.win 0).blk t).view.emb (ix2 p q)) (((cfg1.win 1).blk t).view.emb (ix2 (0 : Fin 1) q)) hx hb

/-- An index of the output array is in grid point `t`'s block iff each coordinate is in the block's range on its axis. -/
theorem mem_block (t : Fin cfg1.N) (i : S50000x256.Idx) :
    i ∈ ((cfg1.win 2).blk t).view.set ↔ ∀ a : Fin 2, win1_2.index t a * S2000x256.size a ≤ (i a).val
      ∧ (i a).val < win1_2.index t a * S2000x256.size a + S2000x256.size a := by
  show i ∈ ((View.whole main_v45).slice (win1_2.rect t)).set ↔ _
  rw [View.set_slice_whole, Rect.mem_set_unit]
  exact Iff.rfl

/-- Row `r` of the output array is in the block of grid point `r / 2000`, and every grid point writes its block back:
    the 25 blocks of 2000 rows cover the 50000 rows. -/
theorem covered (i : S50000x256.Idx) :
    ∃ t : Fin cfg1.N, (cfg1.win 2).flush t = true ∧ i ∈ ((cfg1.win 2).blk t).view.set := by
  have hi0 : (i 0).val < 50000 := (i 0).isLt
  have hi1 : (i 1).val < 256 := (i 1).isLt
  have hN : grid1.N = 25 := N_1
  obtain ⟨t, ht⟩ : ∃ t : Fin cfg1.N, t.val = (i 0).val / 2000 :=
    ⟨⟨(i 0).val / 2000, by show (i 0).val / 2000 < grid1.N; omega⟩, rfl⟩
  obtain ⟨e0, e1, e2, e3, e4, e5⟩ := block_indices t
  refine ⟨t, flush1_2 t, ?_⟩
  rw [mem_block]
  intro a
  match a with
  | ⟨0, _⟩ =>
    show win1_2.index t (0 : Fin 2) * 2000 ≤ (i 0).val ∧ (i 0).val < win1_2.index t (0 : Fin 2) * 2000 + 2000
    omega
  | ⟨1, _⟩ =>
    show win1_2.index t (1 : Fin 2) * 256 ≤ (i 1).val ∧ (i 1).val < win1_2.index t (1 : Fin 2) * 256 + 256
    omega

/-- After the region, its output array is `max (x + b) 0`, entry by entry, of the input arrays as the region found them. -/
theorem array_after (c : Dev nD) :
    (dat1 (F := Ideal) V c).arrAt 2 cfg1.N = rowBiasRelu 50000 256 (V c main_v43) (V c main_v44) := by
  exact (dat1 (F := Ideal) V c).arrAt_eq_of_cover 2 (rowBiasRelu 50000 256 (V c main_v43) (V c main_v44))
    (fun t _ => flushed_eq V c t) covered

end Cert.KernelIdeal.LayerOneBias

end
-- ==== Proof.LayerTwoProduct.lean ====
/-
  The second dense product, read off the pipeline: rows `2000 t … 2000 t + 1999` of the 50000 × 256 hidden
  features times the whole 256 × 128 weight matrix, block by block over 25 grid points.
-/
import proofs.«112724_j17119739641949_1_alg».proof.Proof.Gen.KernelIdeal.Frame
import proofs.«112724_j17119739641949_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.LayerTwoProduct

open Cert.KernelIdeal Cert.KernelIdeal.Gen Cert.GcnSpec
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! ## The block product at an entry -/

/-- Row axis of the left operand: the output's row. -/
theorem lhs_blockDot_0 (i : S2000x128.Idx) (q : dot_S2000x256_S256x128_S2000x128_1_0_0_1_n_n.contr.Idx) :
    (dot_S2000x256_S256x128_S2000x128_1_0_0_1_n_n.lhsIdx i q 0).val = (i 0).val := by
  unfold DotDims.lhsIdx
  rw [dif_neg (show ¬(0 : Fin S2000x256.rank) ∈ dot_S2000x256_S256x128_S2000x128_1_0_0_1_n_n.lhsBatch by decide), dif_pos (show (0 : Fin S2000x256.rank) ∈ dot_S2000x256_S256x128_S2000x128_1_0_0_1_n_n.lhsNonContracting by decide)]
  rfl
/-- Column axis of the left operand: the contracted index. -/
theorem lhs_blockDot_1 (i : S2000x128.Idx) (q : dot_S2000x256_S256x128_S2000x128_1_0_0_1_n_n.contr.Idx) :
    (dot_S2000x256_S256x128_S2000x128_1_0_0_1_n_n.lhsIdx i q 1).val = (q ⟨0, by decide⟩).val :=
  dot_S2000x256_S256x128_S2000x128_1_0_0_1_n_n.lhsIdx_val_of_single rfl i q
/-- Row axis of the right operand: the contracted index. -/
theorem rhs_blockDot_0 (i : S2000x128.Idx) (q : dot_S2000x256_S256x128_S2000x128_1_0_0_1_n_n.contr.Idx) :
    (dot_S2000x256_S256x128_S2000x128_1_0_0_1_n_n.rhsIdx i q 0).val = (q ⟨0, by decide⟩).val :=
  dot_S2000x256_S256x128_S2000x128_1_0_0_1_n_n.rhsIdx_val_of_single rfl i q
/-- Column axis of the right operand: the output's column. -/
theorem rhs_blockDot_1 (i : S2000x128.Idx) (q : dot_S2000x256_S256x128_S2000x128_1_0_0_1_n_n.contr.Idx) :
    (dot_S2000x256_S256x128_S2000x128_1_0_0_1_n_n.rhsIdx i q 1).val = (i 1).val := by
  unfold DotDims.rhsIdx
  rw [dif_neg (show ¬(1 : Fin S256x128.rank) ∈ dot_S2000x256_S256x128_S2000x128_1_0_0_1_n_n.rhsBatch by decide), dif_pos (show (1 : Fin S256x128.rank) ∈ dot_S2000x256_S256x128_S2000x128_1_0_0_1_n_n.rhsNonContracting by decide)]
  rfl

/-- Entry `(p, q)` of what the body computes from a 2000 × 256 block `x0` and the 256 × 128 matrix `x1`:
    the sum over `k` of `x0 (p, k) · x1 (k, q)` (the zero accumulator adds nothing, the format changes are identities). -/
theorem payload_apply (x0 : Vec Ideal S2000x256 .f32) (x1 : Vec Ideal S256x128 .f32) (p : Fin 2000) (q : Fin 128) :
    k2_pay1 (F := Ideal) x0 x1 (ix2 p q) = ∑ k : Fin 256, x0 (ix2 p k) * x1 (ix2 k q) := by
  unfold k2_pay1
  show FloatOps.matmul dot_S2000x256_S256x128_S2000x128_1_0_0_1_n_n none (truncf (F := Ideal) .bf16 (shapeCast S2000x256 (x0 : FVec Ideal S2000x256 .f32) shapeCasts_S2000x256_S2000x256) bitsLt_bf16_f32)
      (truncf (F := Ideal) .bf16 (x1 : FVec Ideal S256x128 .f32) bitsLt_bf16_f32) (constant (F := Ideal) S2000x128 .f32 0x00000000#32) (ix2 p q) = _
  rw [Ideal.matmul_constant_zero_apply, ← Equiv.sum_comp (ValueIdx.contrEquiv1 dot_S2000x256_S256x128_S2000x128_1_0_0_1_n_n 256 rfl rfl).symm]
  refine Finset.sum_congr rfl fun k _ => ?_
  have hk := ValueIdx.contrEquiv1_symm_val dot_S2000x256_S256x128_S2000x128_1_0_0_1_n_n 256 rfl rfl k
  have el : dot_S2000x256_S256x128_S2000x128_1_0_0_1_n_n.lhsIdx (ix2 p q) ((ValueIdx.contrEquiv1 dot_S2000x256_S256x128_S2000x128_1_0_0_1_n_n 256 rfl rfl).symm k) = ix2 p k := funext fun a => Fin.ext (by
    match a with
    | ⟨0, _⟩ => exact lhs_blockDot_0 _ _
    | ⟨1, _⟩ => exact (lhs_blockDot_1 _ _).trans hk)
  have er : dot_S2000x256_S256x128_S2000x128_1_0_0_1_n_n.rhsIdx (ix2 p q) ((ValueIdx.contrEquiv1 dot_S2000x256_S256x128_S2000x128_1_0_0_1_n_n 256 rfl rfl).symm k) = ix2 k q := funext fun a => Fin.ext (by
    match a with
    | ⟨0, _⟩ => exact (rhs_blockDot_0 _ _).trans hk
    | ⟨1, _⟩ => exact rhs_blockDot_1 _ _)
  rw [truncf_apply, truncf_apply, shapeCast_self, el, er]

/-! ## The blocks, read off the arrays -/

theorem zeroOffsets : (![0, 0] : Fin 2 → Nat) = fun _ => 0 := funext fun a => by fin_cases a <;> rfl

/-- The block numbers at grid point `t`: the feature rows and the output rows move with `t`, the weight matrix is
    always its one block, and no window moves along the columns. -/
theorem blockNumbers : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Entry `(p, k)` of the feature block at point `t` is entry `(2000 t + p, k)` of the feature matrix. -/
theorem featureBlock_apply (c : Dev nD) (t : Fin cfg2.N) (p : Fin 2000) (k : Fin 256) (r : Fin 50000)
    (hr : r.val = t.val * 2000 + p.val) :
    (iblk2 V c 0 t : Vec Ideal S2000x256 .f32) (ix2 p k) = (V c main_v45 : S50000x256.Idx → EReal) (ix2 r k) := by
  obtain ⟨e0, e1, -, -, -, -⟩ := blockNumbers t
  unfold iblk2
  rw [View.read_apply]
  show V c main_v45 (((cfg2.win 0).blk t).view.emb (ix2 p k)) = V c main_v45 (ix2 r k)
  congr 1
  funext a
  apply Fin.ext
  match a with
  | ⟨0, _⟩ => show win2_0.index t (0 : Fin 2) * 2000 + 1 * p.val = r.val; omega
  | ⟨1, _⟩ => show win2_0.index t (1 : Fin 2) * 256 + 1 * k.val = k.val; omega

/-- The weight block at every point is the weight matrix. -/
theorem weightBlock_apply (c : Dev nD) (t : Fin cfg2.N) (k : Fin 256) (q : Fin 128) :
    (iblk2 V c 1 t : Vec Ideal S256x128 .f32) (ix2 k q) = (V c main_arg5 : S256x128.Idx → EReal) (ix2 k q) := by
  obtain ⟨-, -, e2, e3, -, -⟩ := blockNumbers t
  unfold iblk2
  rw [View.read_apply]
  show V c main_arg5 (((cfg2.win 1).blk t).view.emb (ix2 k q)) = V c main_arg5 (ix2 k q)
  congr 1
  funext a
  apply Fin.ext
  match a with
  | ⟨0, _⟩ => show win2_1.index t (0 : Fin 2) * 256 + 1 * k.val = k.val; omega
  | ⟨1, _⟩ => show win2_1.index t (1 : Fin 2) * 128 + 1 * q.val = q.val; omega

/-! ## What a point writes back -/

/-- Point `t` writes back block `t` of the matrix product of the two arrays. -/
theorem flushed_eq (c : Dev nD) (t : Fin cfg2.N) :
    (dat2 (F := Ideal) V c).flushed 2 t
      = ((cfg2.win 2).blk t).view.read (Elt Ideal) (matProd 50000 256 128 (V c main_v45) (V c main_arg5)) := by
  show (cfg2.win 2).cut (grid2.coords t) ((dat2 (F := Ideal) V c).after 2 t) = _
  rw [after2_2]
  unfold out2_2
  rw [View.canon_unit_zero zeroOffsets]
  simp only [View.ld_unit_zero (S := S2000x256) zeroOffsets, View.ld_unit_zero (S := S256x128) zeroOffsets]
  obtain ⟨-, -, -, -, e4, e5⟩ := blockNumbers t
  funext j
  obtain ⟨p, q, rfl⟩ : ∃ (p : Fin 2000) (q : Fin 128), j = ix2 p q := ⟨j 0, j 1, eq_ix2 j⟩
  have hp : p.val < 2000 := p.isLt
  have ht : t.val < 25 := t.isLt
  refine (payload_apply _ _ p q).trans ?_
  rw [View.read_apply]
  have hemb : ((cfg2.win 2).blk t).view.emb (ix2 p q)
      = (ix2 (⟨t.val * 2000 + p.val, by omega⟩ : Fin 50000) q : S50000x128.Idx) := by
    funext a
    apply Fin.ext
    match a with
    | ⟨0, _⟩ => show win2_2.index t (0 : Fin 2) * 2000 + 1 * p.val = t.val * 2000 + p.val; omega
    | ⟨1, _⟩ => show win2_2.index t (1 : Fin 2) * 128 + 1 * q.val = q.val; omega
  show _ = matProd 50000 256 128 (V c main_v45) (V c main_arg5) (((cfg2.win 2).blk t).view.emb (ix2 p q))
  rw [hemb]
  unfold matProd
  refine Finset.sum_congr rfl fun k _ => ?_
  rw [featureBlock_apply V c t p k ⟨t.val * 2000 + p.val, by omega⟩ rfl, weightBlock_apply V c t k q]

/-! ## The blocks tile the rows -/

/-- An index of the output array is in point `t`'s block iff each coordinate is in the block's range on its axis. -/
theorem mem_outBlock (t : Fin cfg2.N) (i : S50000x128.Idx) :
    i ∈ ((cfg2.win 2).blk t).view.set ↔ ∀ a : Fin 2, win2_2.index t a * S2000x128.size a ≤ (i a).val
      ∧ (i a).val < win2_2.index t a * S2000x128.size a + S2000x128.size a := by
  show i ∈ ((View.whole main_v46).slice (win2_2.rect t)).set ↔ _
  rw [View.set_slice_whole, Rect.mem_set_unit]
  exact Iff.rfl

/-- Row `r` of the output lies in the block of point `r / 2000`, and every point writes its block back. -/
theorem rows_covered (i : S50000x128.Idx) :
    ∃ t : Fin cfg2.N, (cfg2.win 2).flush t = true ∧ i ∈ ((cfg2.win 2).blk t).view.set := by
  have hi0 : (i 0).val < 50000 := (i 0).isLt
  have hi1 : (i 1).val < 128 := (i 1).isLt
  have hN : grid2.N = 25 := N_2
  have hlt : (i 0).val / 2000 < cfg2.N := by show (i 0).val / 2000 < grid2.N; omega
  obtain ⟨-, -, -, -, e4, e5⟩ := blockNumbers ⟨(i 0).val / 2000, hlt⟩
  have e4' : win2_2.index ⟨(i 0).val / 2000, hlt⟩ (0 : Fin 2) = (i 0).val / 2000 := e4
  refine ⟨⟨(i 0).val / 2000, hlt⟩, flush2_2 _, ?_⟩
  rw [mem_outBlock]
  intro a
  match a with
  | ⟨0, _⟩ =>
    show win2_2.index ⟨(i 0).val / 2000, hlt⟩ (0 : Fin 2) * 2000 ≤ (i 0).val
      ∧ (i 0).val < win2_2.index ⟨(i 0).val / 2000, hlt⟩ (0 : Fin 2) * 2000 + 2000
    omega
  | ⟨1, _⟩ =>
    show win2_2.index ⟨(i 0).val / 2000, hlt⟩ (1 : Fin 2) * 128 ≤ (i 1).val
      ∧ (i 1).val < win2_2.index ⟨(i 0).val / 2000, hlt⟩ (1 : Fin 2) * 128 + 128
    omega

/-! ## The array the region leaves -/

/-- After the region, its output array is the product of the two input arrays as the region found them. -/
theorem array_after (c : Dev nD) :
    (dat2 (F := Ideal) V c).arrAt 2 cfg2.N = matProd 50000 256 128 (V c main_v45) (V c main_arg5) :=
  (dat2 (F := Ideal) V c).arrAt_eq_of_cover 2 (matProd 50000 256 128 (V c main_v45) (V c main_arg5))
    (fun t _ => flushed_eq V c t) rows_covered

end Cert.KernelIdeal.LayerTwoProduct

end
-- ==== Proof.LayerTwoBias.lean ====
/-
  The second bias stage, read off the pipeline: the one bias row added to every row of the aggregated
  50000 × 128 features, 2000 rows per grid point, no positive part.
-/
import proofs.«112724_j17119739641949_1_alg».proof.Proof.Gen.KernelIdeal.Frame
import proofs.«112724_j17119739641949_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.LayerTwoBias

open Cert.KernelIdeal Cert.KernelIdeal.Gen Cert.GcnSpec
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The body's two accesses start at offset zero on both axes. -/
theorem offsets_zero : (![0, 0] : Fin 2 → Nat) = fun _ => 0 := funext fun a => by fin_cases a <;> rfl

/-- The stored value at row `p`, column `q` of a block: the staged entry plus the bias row's entry at `q`. -/
theorem payload_apply (x0 : Vec Ideal S2000x128 .f32) (x1 : Vec Ideal S1x128 .f32) (p : Fin 2000) (q : Fin 128) :
    k3_pay1 x0 x1 (ix2 p q) = x0 (ix2 p q) + x1 (ix2 (0 : Fin 1) q) := by
  unfold k3_pay1
  rw [addf_apply, shapeCast_self, shapeCast_self, broadcastTo_1b_ab_apply]

/-- One entry of `x + b`, from the entry of `x` and the entry of the bias row it is made of. -/
theorem entry_of_reads (x : S50000x128.Idx → EReal) (b : S1x128.Idx → EReal) (i i' : S50000x128.Idx) (k : S1x128.Idx)
    (hi : i' = i) (hk : k = ix2 0 (i 1)) : x i' + b k = rowBias 50000 128 x b i := by
  subst hi hk; rfl

/-- The block indices of the three windows at grid point `t`: the feature and output windows sit at block row `t`,
    the bias window always at its only block. -/
theorem block_indices : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What grid point `t` writes back is block `t` of `x + b`. -/
theorem flushed_eq (c : Dev nD) (t : Fin cfg3.N) :
    (dat3 (F := Ideal) V c).flushed 2 t
      = ((cfg3.win 2).blk t).view.read (Elt Ideal) (rowBias 50000 128 (V c main_v58) (V c main_v59)) := by
  show (cfg3.win 2).cut (grid3.coords t) ((dat3 V c).after 2 t) = _
  rw [after3_2]
  unfold out3_2
  rw [View.canon_unit_zero offsets_zero]
  simp only [View.ld_unit_zero (S := S2000x128) offsets_zero, View.ld_unit_zero (S := S1x128) offsets_zero]
  obtain ⟨e0, e1, e2, e3, e4, e5⟩ := block_indices t
  funext j
  obtain ⟨p, q, rfl⟩ : ∃ (p : Fin 2000) (q : Fin 128), j = ix2 p q := ⟨j 0, j 1, eq_ix2 j⟩
  show k3_pay1 (iblk3 V c 0 t) (iblk3 V c 1 t) (ix2 p q)
    = rowBias 50000 128 (V c main_v58) (V c main_v59) (((cfg3.win 2).blk t).view.emb (ix2 p q))
  refine (payload_apply (iblk3 V c 0 t) (iblk3 V c 1 t) p q).trans ?_
  -- each staged entry is an entry of its array, at block index × block size + the coordinate inside the block
  have hx : ((cfg3.win 0).blk t).view.emb (ix2 p q) = ((cfg3.win 2).blk t).view.emb (ix2 p q) := by
    funext a; apply Fin.ext
    match a with
    | ⟨0, _⟩ => show win3_0.index t (0 : Fin 2) * 2000 + 1 * p.val = win3_2.index t (0 : Fin 2) * 2000 + 1 * p.val; omega
    | ⟨1, _⟩ => show win3_0.index t (1 : Fin 2) * 128 + 1 * q.val = win3_2.index t (1 : Fin 2) * 128 + 1 * q.val; omega
  have hb : ((cfg3.win 1).blk t).view.emb (ix2 (0 : Fin 1) q)
      = ix2 0 ((((cfg3.win 2).blk t).view.emb (ix2 p q)) 1) := by
    funext a; apply Fin.ext
    match a with
    | ⟨0, _⟩ => show win3_1.index t (0 : Fin 2) * 1 + 1 * 0 = 0; omega
    | ⟨1, _⟩ => show win3_1.index t (1 : Fin 2) * 128 + 1 * q.val = win3_2.index t (1 : Fin 2) * 128 + 1 * q.val; omega
  exact entry_of_reads (V c main_v58) (V c main_v59) (((cfg3.win 2).blk t).view.emb (ix2 p q))
    (((cfg3.win 0).blk t).view.emb (ix2 p q)) (((cfg3.win 1).blk t).view.emb (ix2 (0 : Fin 1) q)) hx hb

/-- An index of the output array is in grid point `t`'s block iff each coordinate is in the block's range on its axis. -/
theorem mem_block (t : Fin cfg3.N) (i : S50000x128.Idx) :
    i ∈ ((cfg3.win 2).blk t).view.set ↔ ∀ a : Fin 2, win3_2.index t a * S2000x128.size a ≤ (i a).val
      ∧ (i a).val < win3_2.index t a * S2000x128.size a + S2000x128.size a := by
  show i ∈ ((View.whole main_v60).slice (win3_2.rect t)).set ↔ _
  rw [View.set_slice_whole, Rect.mem_set_unit]
  exact Iff.rfl

/-- Row `r` of the output array is in the block of grid point `r / 2000`, and every grid point writes its block back:
    the 25 blocks of 2000 rows cover the 50000 rows. -/
theorem covered (i : S50000x128.Idx) :
    ∃ t : Fin cfg3.N, (cfg3.win 2).flush t = true ∧ i ∈ ((cfg3.win 2).blk t).view.set := by
  have hi0 : (i 0).val < 50000 := (i 0).isLt
  have hi1 : (i 1).val < 128 := (i 1).isLt
  have hN : grid3.N = 25 := N_3
  obtain ⟨t, ht⟩ : ∃ t : Fin cfg3.N, t.val = (i 0).val / 2000 :=
    ⟨⟨(i 0).val / 2000, by show (i 0).val / 2000 < grid3.N; omega⟩, rfl⟩
  obtain ⟨e0, e1, e2, e3, e4, e5⟩ := block_indices t
  refine ⟨t, flush3_2 t, ?_⟩
  rw [mem_block]
  intro a
  match a with
  | ⟨0, _⟩ =>
    show win3_2.index t (0 : Fin 2) * 2000 ≤ (i 0).val ∧ (i 0).val < win3_2.index t (0 : Fin 2) * 2000 + 2000
    omega
  | ⟨1, _⟩ =>
    show win3_2.index t (1 : Fin 2) * 128 ≤ (i 1).val ∧ (i 1).val < win3_2.index t (1 : Fin 2) * 128 + 128
    omega

/-- After the region, its output array is `x + b`, entry by entry, of the input arrays as the region found them. -/
theorem array_after (c : Dev nD) :
    (dat3 (F := Ideal) V c).arrAt 2 cfg3.N = rowBias 50000 128 (V c main_v58) (V c main_v59) := by
  exact (dat3 (F := Ideal) V c).arrAt_eq_of_cover 2 (rowBias 50000 128 (V c main_v58) (V c main_v59))
    (fun t _ => flushed_eq V c t) covered

end Cert.KernelIdeal.LayerTwoBias

end
-- ==== Proof.LibColumn.lean ====
/-
  Column forms of the keep-dimension layout operations, read at an index: a vector of `a` entries reshaped to
  an `[a, 1]` column holds, in row `i`, entry `i`; and an `[a, 1]` column broadcast along the second axis to
  `[a, b]` holds, at `(p, c)`, the column's entry of row `p`, whatever `c`. (The row forms `[a] → [1, a]` and
  `[1, b] → [a, b]` are the library's `shapeCast_a_1a_apply` and `broadcastTo_1b_ab_apply`.) Stated for every
  extent and every element type.
-/
import Idealize.ShloMosaic.Lib.Pipeline.Value
import Idealize.ShloMosaic.Lib.ValueIdx
import Idealize.ShloMosaic.Lib.ValueLayout

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.PairHead.lean ====
/-
  The scoring head, read off the pipeline.  Grid point `t` stages rows `5000 t … 5000 t + 4999` of the two
  gathered 100000 × 128 arrays, the two 1 × 128 weight rows and the 1 × 1 bias; it multiplies each staged row by
  its weight row, sums along the row (a sum from zero), adds the two sums and the bias, applies the logistic
  function and writes the 5000 × 1 block back at the same rows.  The 20 blocks tile the 100000 rows.
-/
import proofs.«112724_j17119739641949_1_alg».proof.Proof.Gen.KernelIdeal.Frame
import proofs.«112724_j17119739641949_1_alg».proof.Proof.Spec
import proofs.«112724_j17119739641949_1_alg».proof.Proof.LibColumn
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.PairHead

open Cert.KernelIdeal Cert.KernelIdeal.Gen Cert.GcnSpec
open Idealize.ShloMosaic Idealize.ShloMosaic.TcCoe Idealize.ShloMosaic.ValueIdx Idealize.SL.Sem
open Idealize.ShloMosaic.Pipeline (Dat Cfg Window)

/-! ## The body's result at one entry of its 5000 × 1 block -/

/-- The sum along the columns of a 5000 × 128 block, started from zero, is at row `r` the sum of the 128 entries of
    row `r`: the reduced index `r` with the column `k` put back is the entry `(r, k)`. -/
theorem laneSum_apply (x : Vec Ideal S5000x128 .f32) (hacc : (0x00000000#32 : BitVec 32) = 0x00000000#32) (r : Fin 5000) :
    multiReduction (F := Ideal) .add [1] S5000 x 0x00000000#32 reduces_S5000x128_S5000 (.inl rfl) hacc (ix1 r)
      = ∑ k : Fin 128, x (ix2 r k) := by
  refine (Ideal.multiReduction_add_single x 0x00000000#32 reduces_S5000x128_S5000 (.inl rfl) hacc (ix1 r)).trans ?_
  show ∑ k : Fin 128, x (reduces_S5000x128_S5000.lift (ix1 r) k) = _
  refine Finset.sum_congr rfl fun k _ => congrArg x ?_
  funext a
  match a with
  | ⟨0, _⟩ => exact Fin.ext rfl
  | ⟨1, _⟩ => exact Fin.ext rfl

/-- A block times the one weight row repeated over its 5000 rows, summed along each row and laid out as a 5000 × 1
    column: entry `(p, 0)` is the inner product of row `p` of the block with the weight row. -/
theorem rowDot_apply (x : Vec Ideal S5000x128 .f32) (w : Vec Ideal S1x128 .f32) (p : Fin 5000) (q : Fin 1) :
    shapeCast S5000x1 (multiReduction (F := Ideal) .add [1] S5000 (mulf x (broadcastTo S5000x128 w broadcasts_S1x128_S5000x128))
        0x00000000#32 reduces_S5000x128_S5000 (.inl rfl) rfl) shapeCasts_S5000_S5000x1 (ix2 p q)
      = ∑ k : Fin 128, x (ix2 p k) * w (ix2 0 k) := by
  refine (Cert.LibColumn.shapeCast_a_a1_apply _ shapeCasts_S5000_S5000x1 p q).trans ?_
  refine (laneSum_apply _ rfl p).trans ?_
  refine Finset.sum_congr rfl fun k _ => ?_
  rw [mulf_apply]
  exact congrArg _ (broadcastTo_1b_ab_apply w broadcasts_S1x128_S5000x128 p k)

/-- The body's result at `(p, 0)`: the logistic function of the two inner products of row `p` of the two staged
    blocks with their weight rows, plus the bias. The casts to the same shape are the identity, the bias is repeated
    over the 5000 rows, and the two additions and the logistic function act entry by entry. -/
theorem pay_apply (x0 x1 : Vec Ideal S5000x128 .f32) (x2 x3 : Vec Ideal S1x128 .f32) (x4 : Vec Ideal S1x1 .f32)
    (p : Fin 5000) (q : Fin 1) :
    k4_pay1 (F := Ideal) x0 x1 x2 x3 x4 (ix2 p q)
      = Ideal.logistic ((∑ k : Fin 128, x0 (ix2 p k) * x2 (ix2 0 k)) + (∑ k : Fin 128, x1 (ix2 p k) * x3 (ix2 0 k))
          + x4 (ix2 0 0)) := by
  obtain rfl : q = 0 := Subsingleton.elim _ _
  unfold k4_pay1
  simp only [shapeCast_self]
  show Ideal.logistic _ = _
  congr 1
  rw [addf_apply, addf_apply, rowDot_apply, rowDot_apply]
  exact congrArg _ (broadcastTo_1b_ab_apply x4 broadcasts_S1x1_S5000x1 p 0)

/-! ## The blocks as rows of the arrays -/

variable (V : (c : Dev nD) → (b : Ref sig .tc) → Buf (Elt Ideal) ((c : Thread nD τ).loc b))

/-- The zero offset of a whole-buffer access, as the constant function. -/
theorem originZero : (![0, 0] : Fin 2 → Nat) = fun _ => 0 := funext fun a => by fin_cases a <;> rfl

/-- The block indices over the 20 points: the two gathered arrays and the output sit at block row `t`, block column
    0; the two weight rows and the bias are their arrays' one block. -/
theorem idx_facts : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0 :=
  (by decide +kernel : ∀ t : Fin grid4.N, _)

/-- Entry `(y₀, y₁)` of the first gathered array's block at point `t` is the array's entry `(5000 t + y₀, y₁)`. -/
theorem blk0_apply (c : Dev nD) (t : Fin cfg4.N) (y : S5000x128.Idx) (i : S100000x128.Idx)
    (h0 : (i 0).val = 5000 * t.val + (y 0).val) (h1 : (i 1).val = (y 1).val) :
    (iblk4 V c 0 t : Vec Ideal S5000x128 .f32) y = (V c main_v71 : S100000x128.Idx → EReal) i := by
  obtain ⟨e0, e1, -⟩ := idx_facts t
  unfold iblk4
  rw [View.read_apply]
  show V c main_v71 _ = V c main_v71 _
  congr 1
  funext a
  apply Fin.ext
  match a with
  | ⟨0, _⟩ => show win4_0.index t (0 : Fin 2) * 5000 + 1 * (y 0).val = (i 0).val; rw [e0, h0]; omega
  | ⟨1, _⟩ => show win4_0.index t (1 : Fin 2) * 128 + 1 * (y 1).val = (i 1).val; rw [e1, h1]; omega

/-- Entry `(y₀, y₁)` of the second gathered array's block at point `t` is the array's entry `(5000 t + y₀, y₁)`. -/
theorem blk1_apply (c : Dev nD) (t : Fin cfg4.N) (y : S5000x128.Idx) (i : S100000x128.Idx)
    (h0 : (i 0).val = 5000 * t.val + (y 0).val) (h1 : (i 1).val = (y 1).val) :
    (iblk4 V c 1 t : Vec Ideal S5000x128 .f32) y = (V c main_v78 : S100000x128.Idx → EReal) i := by
  obtain ⟨-, -, e0, e1, -⟩ := idx_facts t
  unfold iblk4
  rw [View.read_apply]
  show V c main_v78 _ = V c main_v78 _
  congr 1
  funext a
  apply Fin.ext
  match a with
  | ⟨0, _⟩ => show win4_1.index t (0 : Fin 2) * 5000 + 1 * (y 0).val = (i 0).val; rw [e0, h0]; omega
  | ⟨1, _⟩ => show win4_1.index t (1 : Fin 2) * 128 + 1 * (y 1).val = (i 1).val; rw [e1, h1]; omega

/-- The first weight row's block at every point is the whole row. -/
theorem blk2_apply (c : Dev nD) (t : Fin cfg4.N) (y : S1x128.Idx) :
    (iblk4 V c 2 t : Vec Ideal S1x128 .f32) y = (V c main_v80 : S1x128.Idx → EReal) y := by
  obtain ⟨-, -, -, -, e0, e1, -⟩ := idx_facts t
  unfold iblk4
  rw [View.read_apply]
  show V c main_v80 _ = V c main_v80 _
  congr 1
  funext a
  apply Fin.ext
  match a with
  | ⟨0, _⟩ => show win4_2.index t (0 : Fin 2) * 1 + 1 * (y 0).val = (y 0).val; rw [e0]; omega
  | ⟨1, _⟩ => show win4_2.index t (1 : Fin 2) * 128 + 1 * (y 1).val = (y 1).val; rw [e1]; omega

/-- The second weight row's block at every point is the whole row. -/
theorem blk3_apply (c : Dev nD) (t : Fin cfg4.N) (y : S1x128.Idx) :
    (iblk4 V c 3 t : Vec Ideal S1x128 .f32) y = (V c main_v82 : S1x128.Idx → EReal) y := by
  obtain ⟨-, -, -, -, -, -, e0, e1, -⟩ := idx_facts t
  unfold iblk4
  rw [View.read_apply]
  show V c main_v82 _ = V c main_v82 _
  congr 1
  funext a
  apply Fin.ext
  match a with
  | ⟨0, _⟩ => show win4_3.index t (0 : Fin 2) * 1 + 1 * (y 0).val = (y 0).val; rw [e0]; omega
  | ⟨1, _⟩ => show win4_3.index t (1 : Fin 2) * 128 + 1 * (y 1).val = (y 1).val; rw [e1]; omega

/-- The bias's block at every point is its one entry. -/
theorem blk4_apply (c : Dev nD) (t : Fin cfg4.N) (y : S1x1.Idx) :
    (iblk4 V c 4 t : Vec Ideal S1x1 .f32) y = (V c main_v83 : S1x1.Idx → EReal) y := by
  obtain ⟨-, -, -, -, -, -, -, -, e0, e1, -⟩ := idx_facts t
  unfold iblk4
  rw [View.read_apply]
  show V c main_v83 _ = V c main_v83 _
  congr 1
  funext a
  apply Fin.ext
  match a with
  | ⟨0, _⟩ => show win4_4.index t (0 : Fin 2) * 1 + 1 * (y 0).val = (y 0).val; rw [e0]; omega
  | ⟨1, _⟩ => show win4_4.index t (1 : Fin 2) * 1 + 1 * (y 1).val = (y 1).val; rw [e1]; omega

/-! ## What each point writes back, and the array the 20 blocks make -/

/-- What point `t` writes back is block `t` of the pair score of the five arrays: entry `(p, 0)` of the block sits at row
    `5000 t + p` of the output, and the two staged blocks' rows `p` are rows `5000 t + p` of the gathered arrays. -/
theorem flushed_eq (c : Dev nD) (t : Fin cfg4.N) :
    (dat4 (F := Ideal) V c).flushed 5 t = ((cfg4.win 5).blk t).view.read (Elt Ideal)
      (pairScore 100000 128 (V c main_v71) (V c main_v78) (V c main_v80) (V c main_v82) (V c main_v83)) := by
  show (cfg4.win 5).cut (grid4.coords t) ((dat4 V c).after 5 t) = _
  rw [after4_5]
  unfold out4_5
  rw [View.canon_unit_zero originZero]
  simp only [View.ld_unit_zero (S := S5000x128) originZero, View.ld_unit_zero (S := S1x128) originZero,
    View.ld_unit_zero (S := S1x1) originZero]
  obtain ⟨-, -, -, -, -, -, -, -, -, -, e0, e1⟩ := idx_facts t
  refine funext fun (j : S5000x1.Idx) => ?_
  obtain ⟨p, q, rfl⟩ : ∃ (p : Fin 5000) (q : Fin 1), j = ix2 p q := ⟨j 0, j 1, eq_ix2 j⟩
  show k4_pay1 (F := Ideal) (iblk4 V c 0 t) (iblk4 V c 1 t) (iblk4 V c 2 t) (iblk4 V c 3 t) (iblk4 V c 4 t) (ix2 p q)
    = pairScore 100000 128 (V c main_v71) (V c main_v78) (V c main_v80) (V c main_v82) (V c main_v83)
        (((cfg4.win 5).blk t).view.emb (ix2 p q))
  refine (pay_apply _ _ _ _ _ p q).trans ?_
  have hi0 : ((((cfg4.win 5).blk t).view.emb (ix2 p q) : S100000x1.Idx) 0).val = 5000 * t.val + p.val := by
    show win4_5.index t (0 : Fin 2) * 5000 + 1 * p.val = _
    rw [e0]; omega
  unfold pairScore
  refine congrArg Ideal.logistic (congrArg₂ (· + ·) (congrArg₂ (· + ·) ?_ ?_) (blk4_apply V c t _))
  · exact Finset.sum_congr rfl fun k _ =>
      congrArg₂ (· * ·) (blk0_apply V c t (ix2 p k) (ix2 _ k) hi0 rfl) (blk2_apply V c t _)
  · exact Finset.sum_congr rfl fun k _ =>
      congrArg₂ (· * ·) (blk1_apply V c t (ix2 p k) (ix2 _ k) hi0 rfl) (blk3_apply V c t _)

/-- An index of the output array lies in point `t`'s block exactly when each coordinate lies in the block's range on
    its axis. -/
theorem mem_blk (t : Fin cfg4.N) (i : S100000x1.Idx) :
    i ∈ ((cfg4.win 5).blk t).view.set ↔ ∀ a : Fin 2, win4_5.index t a * S5000x1.size a ≤ (i a).val
      ∧ (i a).val < win4_5.index t a * S5000x1.size a + S5000x1.size a := by
  show i ∈ ((View.whole main_v84).slice (win4_5.rect t)).set ↔ _
  rw [View.set_slice_whole, Rect.mem_set_unit]
  exact Iff.rfl

/-- Row `r` of the output lies in the block of point `r / 5000`, and every point writes its block back: the 20 blocks
    cover the 100000 rows. -/
theorem cover (i : S100000x1.Idx) :
    ∃ t : Fin cfg4.N, (cfg4.win 5).flush t = true ∧ i ∈ ((cfg4.win 5).blk t).view.set := by
  have hi0 : (i 0).val < 100000 := (i 0).isLt
  have hi1 : (i 1).val < 1 := (i 1).isLt
  have hN : grid4.N = 20 := N_4
  obtain ⟨t, ht⟩ : ∃ t : Fin cfg4.N, t.val = (i 0).val / 5000 :=
    ⟨⟨(i 0).val / 5000, by show (i 0).val / 5000 < grid4.N; rw [hN]; omega⟩, rfl⟩
  obtain ⟨-, -, -, -, -, -, -, -, -, -, e0, e1⟩ := idx_facts t
  refine ⟨t, flush4_5 t, ?_⟩
  rw [mem_blk]
  intro a
  match a with
  | ⟨0, _⟩ =>
    show win4_5.index t (0 : Fin 2) * 5000 ≤ (i 0).val ∧ (i 0).val < win4_5.index t (0 : Fin 2) * 5000 + 5000
    rw [e0, ht]; omega
  | ⟨1, _⟩ =>
    show win4_5.index t (1 : Fin 2) * 1 ≤ (i 1).val ∧ (i 1).val < win4_5.index t (1 : Fin 2) * 1 + 1
    rw [e1]; omega

/-- After the region, its output array is the pair score of the five input arrays as the region found them. -/
theorem array_after (c : Dev nD) :
    (dat4 (F := Ideal) V c).arrAt 5 cfg4.N
      = pairScore 100000 128 (V c main_v71) (V c main_v78) (V c main_v80) (V c main_v82) (V c main_v83) :=
  (dat4 (F := Ideal) V c).arrAt_eq_of_cover 5 _ (fun t _ => flushed_eq V c t) cover

end Cert.KernelIdeal.PairHead

end
-- ==== Proof.RefStages.lean ====
/-
  The reference program's stages that differ in form from the kernel's regions, each shown to be the same
  plain function: its two `dot_general`s are matrix products; its bias additions broadcast a vector over the rows;
  its `relu` is the maximum with a zero splat; and its head contracts the concatenation of the two gathered row
  arrays with the whole 256-entry weight column — a sum over 256 that splits, by associativity and commutativity
  of addition on the extended reals, into the two sums over 128 the kernel takes —, then adds the bias and
  divides one by one plus the exponential of the negation, which is the logistic function.
-/
import proofs.«112724_j17119739641949_1_alg».proof.Proof.RefRead
import proofs.«112724_j17119739641949_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.Stages

open Cert.ReferenceIdeal Cert.ReferenceIdeal.Gen Cert.ReferenceIdeal.ReadP Cert.GcnSpec
open Idealize.ShloMosaic Idealize.ShloMosaic.TcCoe Idealize.ShloMosaic.ValueIdx

variable (x0 : (⟨S2x800000, .i32⟩ : BufTy).Contents (Elt Ideal)) (x1 : (⟨S50000x128, .f32⟩ : BufTy).Contents (Elt Ideal))
  (x2 : (⟨S100000x2, .i32⟩ : BufTy).Contents (Elt Ideal)) (x3 : (⟨S128x256, .f32⟩ : BufTy).Contents (Elt Ideal))
  (x4 : (⟨S256, .f32⟩ : BufTy).Contents (Elt Ideal)) (x5 : (⟨S256x128, .f32⟩ : BufTy).Contents (Elt Ideal))
  (x6 : (⟨S128, .f32⟩ : BufTy).Contents (Elt Ideal)) (x7 : (⟨S256x1, .f32⟩ : BufTy).Contents (Elt Ideal))
  (x8 : (⟨S1, .f32⟩ : BufTy).Contents (Elt Ideal))

/-! ## Two small facts the stages share -/

/-- The single-precision pattern with sign 0, biased exponent 127 and fraction 0 is the number one. -/
theorem ofBits_one_f32 : Ideal.ofBits .f32 0x3F800000#32 = 1 := by
  simp [Ideal.ofBits, Ideal.ieee, -EReal.coe_mul]; norm_num

/-- A sum over 256 indices is the sum over the indices below 128 plus the sum over those from 128 on: the index
    set is the disjoint union of the two halves, and addition on the extended reals is commutative and associative. -/
theorem sum_halves (f : Fin 256 → EReal) :
    ∑ k : Fin 256, f k
      = (∑ k : Fin 128, f ⟨k.val, by have := k.isLt; omega⟩)
        + ∑ k : Fin 128, f ⟨128 + k.val, by have := k.isLt; omega⟩ :=
  Fin.sum_univ_add (a := 128) (b := 128) f

/-! ## The matrix products -/

/-- The first `dot_general` is the matrix product of the features with the first weight matrix. -/
theorem product_one : val_main_v30 (F := Ideal) x1 x3 = matProd 50000 128 256 x1 x3 := by
  funext i
  rw [val_main_v30_apply]
  unfold matProd
  refine Finset.sum_congr rfl fun k _ => ?_
  -- row (i 0) of the features at column k, times row k of the weights at column (i 1)
  have el : lidx_main_v30 i k = ix2 (i 0) k :=
    funext fun a => Fin.ext (by match a with | ⟨0, _⟩ => rfl | ⟨1, _⟩ => rfl)
  have er : ridx_main_v30 i k = ix2 k (i 1) :=
    funext fun a => Fin.ext (by match a with | ⟨0, _⟩ => rfl | ⟨1, _⟩ => rfl)
  rw [el, er]
  rfl

/-- The first layer's `relu (agg + b)` is the row bias with positive part. -/
theorem bias_relu_one :
    val_main_v47 (F := Ideal) x0 x1 x3 x4 = rowBiasRelu 50000 256 (val_main_v43 (F := Ideal) x0 x1 x3) (asRow 256 x4) := by
  funext i
  rw [val_main_v47_apply, val_main_v46_apply, val_main_v45_apply, val_main_v44_apply, val_main_call1_v0_apply,
    val_main_call1_cst_apply]
  -- the bias broadcast twice reads entry (i 1) of the vector
  have eb : idx_main_v44 (idx_main_v45 i) = ix1 (i 1) :=
    funext fun a => Fin.ext (by match a with | ⟨0, _⟩ => rfl)
  rw [eb]
  simp only [Ideal.maximumf_def, Ideal.addf_def, Ideal.ofBits_def, Ideal.ofBits_zero_f32]
  rfl

/-- The second `dot_general` is the matrix product of the hidden features with the second weight matrix. -/
theorem product_two :
    val_main_v48 (F := Ideal) x0 x1 x3 x4 x5 = matProd 50000 256 128 (val_main_v47 (F := Ideal) x0 x1 x3 x4) x5 := by
  funext i
  rw [val_main_v48_apply]
  unfold matProd
  refine Finset.sum_congr rfl fun k _ => ?_
  have el : lidx_main_v48 i k = ix2 (i 0) k :=
    funext fun a => Fin.ext (by match a with | ⟨0, _⟩ => rfl | ⟨1, _⟩ => rfl)
  have er : ridx_main_v48 i k = ix2 k (i 1) :=
    funext fun a => Fin.ext (by match a with | ⟨0, _⟩ => rfl | ⟨1, _⟩ => rfl)
  rw [el, er]
  rfl

/-- The second layer's `agg + b` is the row bias. -/
theorem bias_two :
    val_main_v64 (F := Ideal) x0 x1 x3 x4 x5 x6 = rowBias 50000 128 (val_main_v61 (F := Ideal) x0 x1 x3 x4 x5) (asRow 128 x6) := by
  funext i
  rw [val_main_v64_apply, val_main_v63_apply, val_main_v62_apply]
  have eb : idx_main_v62 (idx_main_v63 i) = ix1 (i 1) :=
    funext fun a => Fin.ext (by match a with | ⟨0, _⟩ => rfl)
  rw [eb]
  simp only [Ideal.addf_def]
  rfl

/-! ## The head -/

/-- The two gathered arrays joined along the columns, read at a column below 128, is the first array there. -/
theorem concat_lower (p1 p2 : (⟨S100000x128, .f32⟩ : BufTy).Contents (Elt Ideal)) (i : S100000x1.Idx) (k : Fin 128) :
    concatenate S100000x256 1 [⟨S100000x128, p1⟩, ⟨S100000x128, p2⟩] concatenates_S100000x128_S100000x128_S100000x256_d1
        (lidx_main_v85 i ⟨k.val, by have := k.isLt; omega⟩) = p1 (ix2 (i 0) k) :=
  concatenate_pair_apply_left 1 p1 p2 concatenates_S100000x128_S100000x128_S100000x256_d1 _ rfl (ix2 (i 0) k)
    (fun b => by match b with | ⟨0, _⟩ => rfl | ⟨1, _⟩ => rfl)

/-- Read at column 128 + k it is the second array at column k. -/
theorem concat_upper (p1 p2 : (⟨S100000x128, .f32⟩ : BufTy).Contents (Elt Ideal)) (i : S100000x1.Idx) (k : Fin 128) :
    concatenate S100000x256 1 [⟨S100000x128, p1⟩, ⟨S100000x128, p2⟩] concatenates_S100000x128_S100000x128_S100000x256_d1
        (lidx_main_v85 i ⟨128 + k.val, by have := k.isLt; omega⟩) = p2 (ix2 (i 0) k) :=
  concatenate_pair_apply_right 1 p1 p2 concatenates_S100000x128_S100000x128_S100000x256_d1 _ rfl rfl (ix2 (i 0) k)
    (fun b => by match b with | ⟨0, _⟩ => exact fun _ => rfl | ⟨1, _⟩ => exact fun h => absurd rfl h)
    (by show k.val + 128 = 128 + k.val; omega)

/-- Entry k of the weight column, k below 128, is entry k of its lower half laid out as a row
    (the result has one column, so its column coordinate is 0). -/
theorem weight_lower (i : S100000x1.Idx) (k : Fin 128) :
    x7 (ridx_main_v85 i ⟨k.val, by have := k.isLt; omega⟩) = lowerHalfRow x7 (ix2 0 k) := by
  unfold lowerHalfRow
  refine congrArg x7 (funext fun a => Fin.ext ?_)
  match a with
  | ⟨0, _⟩ => rfl
  | ⟨1, _⟩ => have h : (i 1).val < 1 := (i 1).isLt; show (i 1).val = 0; omega

/-- Entry 128 + k of the weight column is entry k of its upper half laid out as a row. -/
theorem weight_upper (i : S100000x1.Idx) (k : Fin 128) :
    x7 (ridx_main_v85 i ⟨128 + k.val, by have := k.isLt; omega⟩) = upperHalfRow x7 (ix2 0 k) := by
  unfold upperHalfRow
  refine congrArg x7 (funext fun a => Fin.ext ?_)
  match a with
  | ⟨0, _⟩ => rfl
  | ⟨1, _⟩ => have h : (i 1).val < 1 := (i 1).isLt; show (i 1).val = 0; omega

/-- The contraction of the joined rows with the whole weight column is the first array's row against the lower
    half plus the second array's row against the upper half. -/
theorem contraction_split (p1 p2 : (⟨S100000x128, .f32⟩ : BufTy).Contents (Elt Ideal)) (i : S100000x1.Idx) :
    (∑ k : Fin 256, concatenate S100000x256 1 [⟨S100000x128, p1⟩, ⟨S100000x128, p2⟩]
          concatenates_S100000x128_S100000x128_S100000x256_d1 (lidx_main_v85 i k) * x7 (ridx_main_v85 i k))
      = (∑ k : Fin 128, p1 (ix2 (i 0) k) * lowerHalfRow x7 (ix2 0 k))
        + ∑ k : Fin 128, p2 (ix2 (i 0) k) * upperHalfRow x7 (ix2 0 k) := by
  rw [sum_halves]
  refine congrArg₂ (· + ·) (Finset.sum_congr rfl fun k _ => ?_) (Finset.sum_congr rfl fun k _ => ?_)
  · rw [concat_lower, weight_lower x7 i k]
  · rw [concat_upper, weight_upper x7 i k]

/-- The head: the logistic expansion of the 256-wide contraction plus bias is the pair score of the two gathered arrays. -/
theorem head :
    val_main_v94 (F := Ideal) x0 x1 x2 x3 x4 x5 x6 x7 x8
      = pairScore 100000 128 (val_main_v74 (F := Ideal) x0 x1 x2 x3 x4 x5 x6) (val_main_v83 (F := Ideal) x0 x1 x2 x3 x4 x5 x6)
          (lowerHalfRow x7) (upperHalfRow x7) (asRow 1 x8) := by
  funext i
  rw [val_main_v94_apply, val_main_v93_apply, val_main_cst_17_apply, val_main_v92_apply, val_main_v91_apply,
    val_main_cst_16_apply, val_main_v90_apply, val_main_v89_apply, val_main_v88_apply, val_main_v87_apply,
    val_main_v86_apply, val_main_v85_apply]
  unfold val_main_v84
  generalize val_main_v74 (F := Ideal) x0 x1 x2 x3 x4 x5 x6 = p1
  generalize val_main_v83 (F := Ideal) x0 x1 x2 x3 x4 x5 x6 = p2
  -- the scalar bias, broadcast twice, is the one entry of the bias vector
  have e8 : x8 (idx_main_v86 (idx_main_v87 i)) = asRow 1 x8 (ix2 0 0) := by
    unfold asRow
    exact congrArg x8 (funext fun a => Fin.ext (by match a with | ⟨0, _⟩ => rfl))
  rw [contraction_split, e8]
  -- one over one plus the exponential of the negation is the logistic function
  simp only [Ideal.hostDivf_def, Ideal.addf_def, Ideal.hostUnary_exp_def, Ideal.hostNegf_def, Ideal.negf_def,
    Ideal.ofBits_def, ofBits_one_f32]
  rfl

end Cert.ReferenceIdeal.Stages

end
-- ==== Proof.Layouts.lean ====
/-
  The small re-layings the kernel's host code does before its regions, each read as a plain function: a bias
  vector reshaped to a one-row matrix holds the vector along its row; the upper and the lower half of the
  256-entry weight column, sliced out and reshaped to a 1 × 128 row, hold entries 0 … 127 and 128 … 255.
-/
import proofs.«112724_j17119739641949_1_alg».proof.Proof.Gen.KernelIdeal
import proofs.«112724_j17119739641949_1_alg».proof.Proof.Spec
import Idealize.ShloMosaic.Lib.Pipeline.Value
import Idealize.ShloMosaic.Lib.ValueIdx
import Idealize.ShloMosaic.Lib.ValueLayout

noncomputable section

namespace Cert.KernelIdeal.Layouts

open Cert.KernelIdeal Cert.KernelIdeal.Gen Cert.GcnSpec
open Idealize.ShloMosaic Idealize.ShloMosaic.TcCoe Idealize.ShloMosaic.ValueIdx

/-- An `[a, 1]` column reshaped to a `[1, a]` row reads, at `(u, i)`, the column's entry of row `i`: both indices
    have row-major position `i`, the unit coordinates being `0`. -/
theorem column_as_row {α : Type} {a : ℕ} (x : (⟨2, ![a, 1]⟩ : Shape).Idx → α)
    (h : (⟨2, ![a, 1]⟩ : Shape).ShapeCasts ⟨2, ![1, a]⟩) (u : Fin 1) (i : Fin a) :
    shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.mul_one, Nat.add_zero, Nat.zero_mul, Nat.zero_add])

/-- The 256-entry bias reshaped to `[1, 256]` is the bias along the one row. -/
theorem bias_row_256 (x : S256.Idx → EReal) : shapeCast S1x256 x shapeCasts_S256_S1x256 = asRow 256 x := by
  funext i
  obtain ⟨p, q, rfl⟩ : ∃ (p : Fin 1) (q : Fin 256), i = ix2 p q := ⟨i 0, i 1, eq_ix2 i⟩
  -- the reshape keeps the row-major position: entry `(p, q)` of the row is entry `q` of the vector
  exact shapeCast_a_1a_apply x shapeCasts_S256_S1x256 p q

/-- The 128-entry bias reshaped to `[1, 128]` is the bias along the one row. -/
theorem bias_row_128 (x : S128.Idx → EReal) : shapeCast S1x128 x shapeCasts_S128_S1x128 = asRow 128 x := by
  funext i
  obtain ⟨p, q, rfl⟩ : ∃ (p : Fin 1) (q : Fin 128), i = ix2 p q := ⟨i 0, i 1, eq_ix2 i⟩
  exact shapeCast_a_1a_apply x shapeCasts_S128_S1x128 p q

/-- The one-entry bias reshaped to `[1, 1]`. -/
theorem bias_cell (x : S1.Idx → EReal) : shapeCast S1x1 x shapeCasts_S1_S1x1 = asRow 1 x := by
  funext i
  obtain ⟨p, q, rfl⟩ : ∃ (p : Fin 1) (q : Fin 1), i = ix2 p q := ⟨i 0, i 1, eq_ix2 i⟩
  exact shapeCast_a_1a_apply x shapeCasts_S1_S1x1 p q

/-- Rows 0 … 127 of the weight column, sliced and reshaped to a row. -/
theorem weight_lower (v : S256x1.Idx → EReal) :
    shapeCast S1x128 (extractStridedSlice S128x1 ![0, 0] v slices_S256x1_S128x1_0_0) shapeCasts_S128x1_S1x128 = lowerHalfRow v := by
  funext i
  obtain ⟨p, q, rfl⟩ : ∃ (p : Fin 1) (q : Fin 128), i = ix2 p q := ⟨i 0, i 1, eq_ix2 i⟩
  refine (column_as_row _ shapeCasts_S128x1_S1x128 p q).trans ?_
  -- the slice from row 0 reads, in its row `q`, row `0 + q` of the whole column
  refine (slice2_axis0_eq 0 v slices_S256x1_S128x1_0_0 q (0 : Fin 1)).trans ?_
  unfold lowerHalfRow
  exact congrArg v (congrArg (fun r => ix2 r (0 : Fin 1)) (Fin.ext (Nat.zero_add _)))

/-- Rows 128 … 255 of the weight column, sliced and reshaped to a row. -/
theorem weight_upper (v : S256x1.Idx → EReal) :
    shapeCast S1x128 (extractStridedSlice S128x1 ![128, 0] v slices_S256x1_S128x1_128_0) shapeCasts_S128x1_S1x128 = upperHalfRow v := by
  funext i
  obtain ⟨p, q, rfl⟩ : ∃ (p : Fin 1) (q : Fin 128), i = ix2 p q := ⟨i 0, i 1, eq_ix2 i⟩
  refine (column_as_row _ shapeCasts_S128x1_S1x128 p q).trans ?_
  -- the slice from row 128 reads, in its row `q`, row `128 + q` of the whole column
  refine (slice2_axis0_eq 128 v slices_S256x1_S128x1_128_0 q (0 : Fin 1)).trans ?_
  unfold upperHalfRow
  rfl

end Cert.KernelIdeal.Layouts

end
-- ==== Proof.MaskColumns.lean ====
/-
  The two node numbers of every pair.  The pair table is a 100000 × 2 integer array.  The kernel program takes
  its column `k` by slicing `[0:100000, k:k+1]` and dropping the unit axis; the reference transposes the table
  to 2 × 100000, slices row `k` and drops the unit axis.  Both read, at pair `r`, the table's entry `(r, k)`.
-/
import proofs.«112724_j17119739641949_1_alg».proof.Proof.Gen.KernelIdeal
import proofs.«112724_j17119739641949_1_alg».proof.Proof.RefRead
import Idealize.ShloMosaic.Lib.Pipeline.Value
import Idealize.ShloMosaic.Lib.ValueIdx
import Idealize.ShloMosaic.Lib.ValueLayout

noncomputable section

namespace Cert.KernelIdeal.MaskColumns

open Cert.KernelIdeal Cert.KernelIdeal.Gen
open Idealize.ShloMosaic Idealize.ShloMosaic.TcCoe Idealize.ShloMosaic.ValueIdx

/-- An `[a, 1]` column with its unit axis dropped reads, at `i`, the column's entry of row `i`: both indices have
    row-major position `i`. -/
theorem column_as_vector {α : Type} {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- Column `k` of an `[a, b]` table, sliced out as an `[a, 1]` column and its unit axis dropped, reads at `r` the
    table's entry `(r, k)`. -/
theorem column_read {α : Type} {a b : ℕ} (k : ℕ) (x : (⟨2, ![a, b]⟩ : Shape).Idx → α)
    (hs : (⟨2, ![a, b]⟩ : Shape).Slices ![0, k] ⟨2, ![a, 1]⟩) (hc : (⟨2, ![a, 1]⟩ : Shape).ShapeCasts ⟨1, ![a]⟩)
    (r : Fin a) (c : Fin b) (hck : c.val = k) :
    shapeCast ⟨1, ![a]⟩ (extractStridedSlice ⟨2, ![a, 1]⟩ ![0, k] x hs) hc (ix1 r) = x (ix2 r c) :=
  (column_as_vector _ hc r).trans
    (slice2_axis1_apply k x hs r (0 : Fin 1) c (by show c.val = k + 0; rw [hck, Nat.add_zero]))

/-- The table's first column, taken either way. -/
theorem first_column (x2 : (⟨S100000x2, .i32⟩ : BufTy).Contents (Elt Ideal)) :
    shapeCast S100000 (extractStridedSlice S100000x1 ![0, 0] x2 slices_S100000x2_S100000x1_0_0) shapeCasts_S100000x1_S100000
      = Cert.ReferenceIdeal.ReadP.val_main_v67 (F := Ideal) x2 := by
  funext i
  obtain ⟨r, rfl⟩ : ∃ r : Fin 100000, i = ix1 r := ⟨i 0, eq_ix1 i⟩
  -- the reference: the reshape reads row 0 of the slice at column `r % 100000`, the slice reads row `0` of the
  -- transposed table, the transpose swaps the two coordinates
  rw [Cert.ReferenceIdeal.ReadP.val_main_v67_apply, Cert.ReferenceIdeal.ReadP.val_main_v66_apply,
    Cert.ReferenceIdeal.ReadP.val_main_v65_apply]
  -- the kernel program: entry `(r, 0)` of the table
  refine (column_read 0 x2 slices_S100000x2_S100000x1_0_0 shapeCasts_S100000x1_S100000 r (0 : Fin 2) rfl).trans ?_
  -- the two indices agree coordinate by coordinate: `r = r % 100000` as `r < 100000`, and `0 = 0`
  refine congrArg x2 (funext fun a => Fin.ext ?_)
  match a with
  | ⟨0, _⟩ => exact (Nat.mod_eq_of_lt r.isLt).symm
  | ⟨1, _⟩ => rfl

/-- The table's second column, taken either way. -/
theorem second_column (x2 : (⟨S100000x2, .i32⟩ : BufTy).Contents (Elt Ideal)) :
    shapeCast S100000 (extractStridedSlice S100000x1 ![0, 1] x2 slices_S100000x2_S100000x1_0_1) shapeCasts_S100000x1_S100000
      = Cert.ReferenceIdeal.ReadP.val_main_v76 (F := Ideal) x2 := by
  funext i
  obtain ⟨r, rfl⟩ : ∃ r : Fin 100000, i = ix1 r := ⟨i 0, eq_ix1 i⟩
  -- the reference: as for the first column, the slice now reading row `1 + 0` of the transposed table
  rw [Cert.ReferenceIdeal.ReadP.val_main_v76_apply, Cert.ReferenceIdeal.ReadP.val_main_v75_apply,
    Cert.ReferenceIdeal.ReadP.val_main_v65_apply]
  -- the kernel program: entry `(r, 1)` of the table
  refine (column_read 1 x2 slices_S100000x2_S100000x1_0_1 shapeCasts_S100000x1_S100000 r (1 : Fin 2) rfl).trans ?_
  -- the two indices agree coordinate by coordinate: `r = r % 100000` as `r < 100000`, and `1 = 1 + 0`
  refine congrArg x2 (funext fun a => Fin.ext ?_)
  match a with
  | ⟨0, _⟩ => exact (Nat.mod_eq_of_lt r.isLt).symm
  | ⟨1, _⟩ => rfl

end Cert.KernelIdeal.MaskColumns

end
-- ==== Proof.lean ====
/-
  The certificate of the graph-convolution kernel against its jnp reference.

  Both programs compute, from an edge list, node features, a table of node pairs and the weights of two graph
  convolutions and a linear head: per layer, a dense product of the node features with a weight matrix, a
  spreading of the rows along the degree-normalised edges (gather, scale, scatter-add), a bias; a positive part
  between the layers; and per pair the logistic function of the two gathered embeddings contracted with the head's
  weights plus its bias.  The kernel program does the dense products, the bias stages and the head in five pipelined
  TensorCore regions and the edge traffic in host operations; the reference does everything in host operations.

  Frames: the two kernel programs' frames are the generated ones; the reference's is its run with the result dropped.
  The idealization rewrote nothing, so `preserves` is trivial.  Equality at the ideal values: the kernel program's run
  ends with its result buffer at the last boundary's contents of its fold (`Run.run_result`), that fold read forwards
  region by region is the reference's last stage of the launched arguments (`Fold.result`, over the per-region and
  per-stage facts of the sibling modules), and the reference's run ends at that same stage of its own arguments,
  which agree.  No step divides, cancels or distributes: the only laws used are associativity and commutativity of
  addition on the extended reals (one sum over 256 split into two over 128), so finiteness of the inputs is not used.
-/
import proofs.«112724_j17119739641949_1_alg».proof.Defs
import proofs.«112724_j17119739641949_1_alg».proof.Proof.Gen.Kernel
import proofs.«112724_j17119739641949_1_alg».proof.Proof.Gen.Kernel.Skeleton
import proofs.«112724_j17119739641949_1_alg».proof.Proof.Gen.Kernel.Launch
import proofs.«112724_j17119739641949_1_alg».proof.Proof.Gen.Kernel.Points
import proofs.«112724_j17119739641949_1_alg».proof.Proof.Gen.Kernel.Frame
import proofs.«112724_j17119739641949_1_alg».proof.Proof.Gen.KernelIdeal
import proofs.«112724_j17119739641949_1_alg».proof.Proof.Gen.KernelIdeal.Skeleton
import proofs.«112724_j17119739641949_1_alg».proof.Proof.Gen.KernelIdeal.Launch
import proofs.«112724_j17119739641949_1_alg».proof.Proof.Gen.KernelIdeal.Points
import proofs.«112724_j17119739641949_1_alg».proof.Proof.Gen.KernelIdeal.Frame
import proofs.«112724_j17119739641949_1_alg».proof.Proof.Gen.ReferenceIdeal
import proofs.«112724_j17119739641949_1_alg».proof.Proof.Gen.Pre_finite_inputs
import proofs.«112724_j17119739641949_1_alg».proof.Proof.KernelRun
import proofs.«112724_j17119739641949_1_alg».proof.Proof.RefRead
import proofs.«112724_j17119739641949_1_alg».proof.Proof.RefReadEq
import proofs.«112724_j17119739641949_1_alg».proof.Proof.Fold
import proofs.«112724_j17119739641949_1_alg».proof.Proof.LayerOneProduct
import proofs.«112724_j17119739641949_1_alg».proof.Proof.LayerOneBias
import proofs.«112724_j17119739641949_1_alg».proof.Proof.LayerTwoProduct
import proofs.«112724_j17119739641949_1_alg».proof.Proof.LayerTwoBias
import proofs.«112724_j17119739641949_1_alg».proof.Proof.PairHead
import proofs.«112724_j17119739641949_1_alg».proof.Proof.RefStages
import proofs.«112724_j17119739641949_1_alg».proof.Proof.Layouts
import proofs.«112724_j17119739641949_1_alg».proof.Proof.MaskColumns
import Idealize.ShloMosaic.Adequacy
import Idealize.ShloMosaic.Init

set_option maxRecDepth 16384

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- After the kernel program's run its result buffer holds the reference's last stage of the launched arguments. -/
theorem kernel_result (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    Cert.KernelIdeal.Gen.W11 (F := Ideal) m ρ c (Proc.devRef .tc Cert.KernelIdeal.main_v84)
      = Cert.ReferenceIdeal.ReadP.val_main_v94 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) :=
  Cert.KernelIdeal.Fold.result m ρ c
    (fun V c => Cert.KernelIdeal.LayerOneProduct.array_after V c)
    (fun V c => Cert.KernelIdeal.LayerOneBias.array_after V c)
    (fun V c => Cert.KernelIdeal.LayerTwoProduct.array_after V c)
    (fun V c => Cert.KernelIdeal.LayerTwoBias.array_after V c)
    (fun V c => Cert.KernelIdeal.PairHead.array_after V c)
    (fun x1 x3 => Cert.ReferenceIdeal.Stages.product_one x1 x3)
    (fun x0 x1 x3 x4 => Cert.ReferenceIdeal.Stages.bias_relu_one x0 x1 x3 x4)
    (fun x0 x1 x3 x4 x5 => Cert.ReferenceIdeal.Stages.product_two x0 x1 x3 x4 x5)
    (fun x0 x1 x3 x4 x5 x6 => Cert.ReferenceIdeal.Stages.bias_two x0 x1 x3 x4 x5 x6)
    (fun x0 x1 x2 x3 x4 x5 x6 x7 x8 => Cert.ReferenceIdeal.Stages.head x0 x1 x2 x3 x4 x5 x6 x7 x8)
    Cert.KernelIdeal.Layouts.bias_row_256 Cert.KernelIdeal.Layouts.bias_row_128 Cert.KernelIdeal.Layouts.bias_cell
    Cert.KernelIdeal.Layouts.weight_lower Cert.KernelIdeal.Layouts.weight_upper
    Cert.KernelIdeal.MaskColumns.first_column Cert.KernelIdeal.MaskColumns.second_column

theorem algebraic : Cert.algebraic_KernelIdeal_ReferenceIdeal := by
  intro m ρ m' ρ' _ hagree
  refine ⟨fun c => Cert.ReferenceIdeal.ReadP.val_main_v94 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono (fun r h c => ⟨(h c).1.trans (kernel_result m ρ c), (h c).2⟩)
      (Cert.KernelIdeal.Run.run_result (F := Ideal) m ρ)
  · refine (θ_run Cert.ReferenceIdeal.defs _ _).mono (fun r h c => ⟨(h c).1.trans ?_, (h c).2⟩)
      (Cert.ReferenceIdeal.ValueP.run (F := Ideal) m' ρ')
    obtain ⟨e0, e1, e2, e3, e4, e5, e6, e7, e8⟩ := hagree c
    rw [Cert.ReferenceIdeal.ReadP.val_main_v94_eq, e0, e1, e2, e3, e4, e5, e6, e7, e8]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
